-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : IVec S4096x4096 32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_c_6 : IVec S_ 32 := constantI S_ 32 0#32
  let main_v19 : IVec S4096x4096 32 := broadcastInDim S4096x4096 ![] bcast_S_S4096x4096 main_c_6
  let main_v20 : IVec S4096x4096 1 := cmpi .sge main_arg1 main_v19
  let main_c_7 : IVec S_ 32 := constantI S_ 32 16#32
  let main_v21 : IVec S4096x4096 32 := broadcastInDim S4096x4096 ![] bcast_S_S4096x4096 main_c_7
  let main_v22 : IVec S4096x4096 1 := cmpi .slt main_arg1 main_v21
  let main_v23 : IVec S4096x4096 1 := andi main_v20 main_v22
  let main_c_8 : IVec S_ 1 := constantI S_ 1 1#1
  let main_v24 : IVec S_ 1 := (fun x v => Host.reduce IntOp.andi x v reducesTo_S4096x4096_S_d0_1 h_S_) main_v23 main_c_8
  let main_v25 : IVec S_ 1 := andi main_v18 main_v24
  main_v25

def fn {F : FTy → Type} [FloatOps F] (main_arg0 : FVec F S4x2048x4096 .f32) (main_arg1 : IVec S4096x4096 32) (main_arg2 : FVec F S4096x64 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg1 main_v13 main_v16
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S8192x4096 : Shape := ⟨2, ![8192, 4096]⟩
abbrev S8192x16 : Shape := ⟨2, ![8192, 16]⟩
abbrev S64 : Shape := ⟨1, ![64]⟩
abbrev S64x1 : Shape := ⟨2, ![64, 1]⟩
abbrev S4096 : Shape := ⟨1, ![4096]⟩
abbrev S1x4096 : Shape := ⟨2, ![1, 4096]⟩
abbrev S_ : Shape := ⟨0, ![]⟩
abbrev S64x4096 : Shape := ⟨2, ![64, 4096]⟩
abbrev S256x4096 : Shape := ⟨2, ![256, 4096]⟩
abbrev S256x64 : Shape := ⟨2, ![256, 64]⟩
abbrev S1024x512 : Shape := ⟨2, ![1024, 512]⟩
abbrev S1024x16 : Shape := ⟨2, ![1024, 16]⟩
abbrev S1024x1024 : Shape := ⟨2, ![1024, 1024]⟩

abbrev nBuf : Space → Nat
  | .hbm => 40
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S4096x16, .f32⟩
  | .hbm, ⟨7, _⟩ => ⟨S8192x16, .f32⟩
  | .hbm, ⟨8, _⟩ => ⟨S64, .i32⟩
  | .hbm, ⟨9, _⟩ => ⟨S64x1, .i32⟩
  | .hbm, ⟨10, _⟩ => ⟨S4096, .i32⟩
  | .hbm, ⟨11, _⟩ => ⟨S1x4096, .i32⟩
  | .hbm, ⟨12, _⟩ => ⟨S_, .i32⟩
  | .hbm, ⟨13, _⟩ => ⟨S_, .i32⟩
  | .hbm, ⟨14, _⟩ => ⟨S1x4096, .i32⟩
  | .hbm, ⟨15, _⟩ => ⟨S1x4096, .i32⟩
  | .hbm, ⟨16, _⟩ => ⟨S1x4096, .i32⟩
  | .hbm, ⟨17, _⟩ => ⟨S_, .i32⟩
  | .hbm, ⟨18, _⟩ => ⟨S1x4096, .i32⟩
  | .hbm, ⟨19, _⟩ => ⟨S1x4096, .i1⟩
  | .hbm, ⟨20, _⟩ => ⟨S1x4096, .i32⟩
  | .hbm, ⟨21, _⟩ => ⟨S1x4096, .i32⟩
  | .hbm, ⟨22, _⟩ => ⟨S_, .i32⟩
  | .hbm, ⟨23, _⟩ => ⟨S1x4096, .i32⟩
  | .hbm, ⟨24, _⟩ => ⟨S1x4096, .i1⟩
  | .hbm, ⟨25, _⟩ => ⟨S1x4096, .i1⟩
  | .hbm, ⟨26, _⟩ => ⟨S_, .i32⟩
  | .hbm, ⟨27, _⟩ => ⟨S1x4096, .i32⟩
  | .hbm, ⟨28, _⟩ => ⟨S1x4096, .i32⟩
  | .hbm, ⟨29, _⟩ => ⟨S1x4096, .i32⟩
  | .hbm, ⟨30, _⟩ => ⟨S64x4096, .i32⟩
  | .hbm, ⟨31, _⟩ => ⟨S64x4096, .i32⟩
  | .hbm, ⟨32, _⟩ => ⟨S64x4096, .i1⟩
  | .hbm, ⟨33, _⟩ => ⟨S64x4096, .f32⟩
  | .hbm, ⟨34, _⟩ => ⟨S4096x4096, .bf16⟩
  | .hbm, ⟨35, _⟩ => ⟨S8192x4096, .bf16⟩
  | .hbm, ⟨36, _⟩ => ⟨S8192x16, .bf16⟩
  | .hbm, ⟨37, _⟩ => ⟨S4096x16, .bf16⟩
  | .hbm, ⟨38, _⟩ => ⟨S8192x4096, .f32⟩
  | .hbm, ⟨39, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S256x64, .f32⟩
  | .local _ .vmem, ⟨3, _⟩ => ⟨S256x64, .f32⟩
  | .local _ .vmem, ⟨4, _⟩ => ⟨S64x4096, .f32⟩
  | .local _ .vmem, ⟨5, _⟩ => ⟨S256x4096, .bf16⟩
  | .local _ .vmem, ⟨6, _⟩ => ⟨S256x4096, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x16, .bf16⟩
  | .local _ .vmem, ⟨12, _⟩ => ⟨S1024x16, .bf16⟩
  | .local _ .vmem, ⟨13, _⟩ => ⟨S1024x16, .bf16⟩
  | .local _ .vmem, ⟨14, _⟩ => ⟨S1024x16, .bf16⟩
  | .local _ .vmem, ⟨15, _⟩ => ⟨S1024x1024, .f32⟩
  | .local _ .vmem, ⟨16, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x16 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1024x16 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x2048x4096_S8192x4096 : S4x2048x4096.ShapeCasts S8192x4096
  transposes_S16x4096_S4096x16_1_0 : S16x4096.Transposes [1, 0] S4096x16
  bcast_S64_S64x1_0 : S64.BroadcastsInDim S64x1 (![0] : Fin 1 → Fin S64x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S64x1_S64x4096_0_1 : S64x1.BroadcastsInDim S64x4096 (![0, 1] : Fin 2 → Fin S64x4096.rank)
  bcast_S1x4096_S64x4096_0_1 : S1x4096.BroadcastsInDim S64x4096 (![0, 1] : Fin 2 → Fin S64x4096.rank)
  inb_S256x4096_S256x4096_0_0 : ∀ a, (![0, 0] : Fin 2 → Nat) a + S256x4096.size a ≤ S256x4096.size a
  h_S256x4096 : 0 < S256x4096.numel
  inb_S256x64_S256x64_0_0 : ∀ a, (![0, 0] : Fin 2 → Nat) a + S256x64.size a ≤ S256x64.size a
  h_S256x64 : 0 < S256x64.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  shapeCasts_S8192x4096_S4x2048x4096 : S8192x4096.ShapeCasts S4x2048x4096
  dot_S8192x4096_S4096x16_S8192x16_1_0_0_1_n_n_wf : DotDims.WF S8192x4096 S4096x16 S8192x16 [1] [0] [0] [1] [] []
  dot_S256x64_S64x4096_S256x4096_1_0_0_1_n_n_wf : DotDims.WF S256x64 S64x4096 S256x4096 [1] [0] [0] [1] [] []
  dot_S1024x512_S1024x512_S1024x1024_1_1_0_0_n_n_wf : DotDims.WF S1024x512 S1024x512 S1024x1024 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .bf16 = 32 ∨ (Rect.block (s := S8192x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x16.size a ≤ S8192x16.size a
  hwx1_2 : ∀ i : grid1.Coords, EltTy.bits .bf16 = 32 ∨ (Rect.block (s := S8192x16) S1024x16.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x16.size a ≤ S4096x16.size a
  hwx1_3 : ∀ i : grid1.Coords, EltTy.bits .bf16 = 32 ∨ (Rect.block (s := S4096x16) S1024x16.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x4096.size a
  hwx1_4 : ∀ i : grid1.Coords, EltTy.bits .f32 = 32 ∨ (Rect.block (s := S8192x4096) S1024x1024.size (cc1_transform_4 i) (hinb1_4 i)).WholeWords (EltTy.packing .f32)

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1024x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1024x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S16 : Shape := ⟨1, ![16]⟩
abbrev S_ : Shape := ⟨0, ![]⟩
abbrev S4096x4096x1 : Shape := ⟨3, ![4096, 4096, 1]⟩
abbrev S4096x64x64 : Shape := ⟨3, ![4096, 64, 64]⟩
abbrev S4096x64x1 : Shape := ⟨3, ![4096, 64, 1]⟩
abbrev S4x2048x16 : Shape := ⟨3, ![4, 2048, 16]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S16, .f32⟩
  | .hbm, ⟨6, _⟩ => ⟨S_, .i32⟩
  | .hbm, ⟨7, _⟩ => ⟨S4096x4096, .i32⟩
  | .hbm, ⟨8, _⟩ => ⟨S4096x4096, .i1⟩
  | .hbm, ⟨9, _⟩ => ⟨S_, .i32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S4096x4096x1, .i32⟩
  | .hbm, ⟨14, _⟩ => ⟨S4096x4096, .f32⟩
  | .hbm, ⟨15, _⟩ => ⟨S4096x64x64, .f32⟩
  | .hbm, ⟨16, _⟩ => ⟨S4096x64x1, .f32⟩
  | .hbm, ⟨17, _⟩ => ⟨S4096x64x64, .f32⟩
  | .hbm, ⟨18, _⟩ => ⟨S4096x64x64, .f32⟩
  | .hbm, ⟨19, _⟩ => ⟨S4096x4096, .f32⟩
  | .hbm, ⟨20, _⟩ => ⟨S4x2048x4096, .f32⟩
  | .hbm, ⟨21, _⟩ => ⟨S4x2048x16, .f32⟩
  | .hbm, ⟨22, _⟩ => ⟨S4x2048x4096, .f32⟩
  | .hbm, ⟨23, _⟩ => ⟨S_, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S_S4x2048x4096 : S_.BroadcastsInDim S4x2048x4096 (![] : Fin 0 → Fin S4x2048x4096.rank)
  gather_S16_S4096x4096x1_S4096x4096_n_0_n_n_0_2_1_wf : GatherDims.WF S16 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Spec.lean ====
/-
  The mathematics both programs compute, stated once over literal shapes and the extended reals.

  A 4-bit code `c` names one of sixteen fixed f32 words (the normal-float-4 table); the kernel finds the word by a
  cascade of fifteen equality tests falling through to the first entry (`casc`), the reference by reading the
  table at the code. On codes 0 … 15 the two agree (`casc_of_range`). A weight is its code's word times the scale
  of its group of 64 consecutive columns (`W`), and the result is `x · Wᵀ + ((x · Aᵀ) · Bᵀ) · 2` (`G`).

  The kernel gets there in two passes. Pass 1 expands the per-group scales to full width by a product with the
  0/1 matrix `E g d = [g = d / 64]` (`R0`; `onehot_sum`: a sum against a one-hot row picks one term, since
  `0 · a = 0` for every extended real `a`). Pass 2 accumulates the 4096-long contraction in eight blocks of
  512, starting from zero, and adds the low-rank term at the last block (`R1`; `accK_eq_sum`, `sum_blocks`:
  regrouping a finite sum needs only commutativity and associativity of `+`, which hold on the extended reals).
-/
import Idealize.ShloMosaic.PureOps.Ideal
import Idealize.ShloMosaic.PureOps.Ideal.Laws
import Idealize.ShloMosaic.Lib.ValueIdx

noncomputable section

namespace Cert.QLora

open Idealize.ShloMosaic Idealize.ShloMosaic.ValueIdx

/-! ## Shapes (the literals the programs print) -/

abbrev SX : Shape := ⟨3, ![4, 2048, 4096]⟩
abbrev SC : Shape := ⟨2, ![4096, 4096]⟩
abbrev SM : Shape := ⟨2, ![4096, 64]⟩
abbrev SLA : Shape := ⟨2, ![16, 4096]⟩
abbrev SLB : Shape := ⟨2, ![4096, 16]⟩
abbrev SE : Shape := ⟨2, ![64, 4096]⟩
abbrev SXF : Shape := ⟨2, ![8192, 4096]⟩
abbrev SAF : Shape := ⟨2, ![8192, 16]⟩

/-- The f32 words `2.0` and `+0.0`, read at the ideal instance. -/
abbrev two : EReal := Ideal.ofBits .f32 0x40000000#32
abbrev zero : EReal := Ideal.ofBits .f32 0x00000000#32

/-! ## The code table -/

/-- The sixteen table words, in order. -/
abbrev lit : Fin 16 → BitVec 32 := fun
  | 0 => 0xBF800000#32 | 1 => 0xBF3239B1#32 | 2 => 0xBF066B30#32 | 3 => 0xBECA32A0#32 | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32 | 12 => 0x3EE1A4B8#32 | 13 => 0x3F1007AB#32 | 14 => 0x3F3913B3#32 | 15 => 0x3F800000#32
  | _ => 0#32

/-- The kernel's decode of one code: fifteen equality tests, the last one made (against 15) deciding first,
    falling through to the table's first word. -/
def casc (c : BitVec 32) : EReal :=
  Scalar.select (IntOp.cmpi .eq c 15#32) (Ideal.ofBits .f32 0x3F800000#32) <|
  Scalar.select (IntOp.cmpi .eq c 14#32) (Ideal.ofBits .f32 0x3F3913B3#32) <|
  Scalar.select (IntOp.cmpi .eq c 13#32) (Ideal.ofBits .f32 0x3F1007AB#32) <|
  Scalar.select (IntOp.cmpi .eq c 12#32) (Ideal.ofBits .f32 0x3EE1A4B8#32) <|
  Scalar.select (IntOp.cmpi .eq c 11#32) (Ideal.ofBits .f32 0x3EAD033A#32) <|
  Scalar.select (IntOp.cmpi .eq c 10#32) (Ideal.ofBits .f32 0x3E7C04DD#32) <|
  Scalar.select (IntOp.cmpi .eq c 9#32) (Ideal.ofBits .f32 0x3E24CAE3#32) <|
  Scalar.select (IntOp.cmpi .eq c 8#32) (Ideal.ofBits .f32 0x3DA2FAFF#32) <|
  Scalar.select (IntOp.cmpi .eq c 7#32) (Ideal.ofBits .f32 0x00000000#32) <|
  Scalar.select (IntOp.cmpi .eq c 6#32) (Ideal.ofBits .f32 0xBDBA7871#32) <|
  Scalar.select (IntOp.cmpi .eq c 5#32) (Ideal.ofBits .f32 0xBE3D353F#32) <|
  Scalar.select (IntOp.cmpi .eq c 4#32) (Ideal.ofBits .f32 0xBE91A24D#32) <|
  Scalar.select (IntOp.cmpi .eq c 3#32) (Ideal.ofBits .f32 0xBECA32A0#32) <|
  Scalar.select (IntOp.cmpi .eq c 2#32) (Ideal.ofBits .f32 0xBF066B30#32) <|
  Scalar.select (IntOp.cmpi .eq c 1#32) (Ideal.ofBits .f32 0xBF3239B1#32) <|
  Ideal.ofBits .f32 0xBF800000#32

/-- One test of the cascade: a select on the equality bit of two words is a choice on their equality. -/
theorem casc_sel_eq {α : Type} (c d : BitVec 32) (a b : α) :
    Scalar.select (IntOp.cmpi .eq c d) a b = if c = d then a else b := by
  have hb : IntOp.cmpi .eq c d = BitVec.ofBool (c == d) := rfl
  unfold Scalar.select
  rw [hb]
  by_cases hcd : c = d
  · have ht : (c == d) = true := beq_iff_eq.2 hcd
    have hone : BitVec.ofBool true = (1 : BitVec 1) := by decide
    rw [ht, if_pos hcd, if_pos hone]
  · have hf : (c == d) = false := beq_eq_false_iff_ne.2 hcd
    have hne : ¬ (BitVec.ofBool false = (1 : BitVec 1)) := by decide
    rw [hf, if_neg hcd, if_neg hne]

/-- On a code in 0 … 15 the cascade lands on the table's entry at that code. -/
theorem casc_of_range (c : BitVec 32) (h0 : 0 ≤ c.toInt) (h1 : c.toInt < 16) (k : Fin 16) (hk : k.val = c.toInt.toNat) :
    casc c = Ideal.ofBits .f32 (lit k) := by
  -- a signed word in 0 … 15 is the unsigned word of the same value n < 16, and k is that n
  have hcond := BitVec.toInt_eq_toNat_cond c
  have hlt := c.isLt
  have hi : c.toInt = c.toNat := by split at hcond <;> omega
  have hn : c.toNat < 16 := by omega
  have hc : c = BitVec.ofNat 32 c.toNat := by
    apply BitVec.eq_of_toNat_eq
    rw [BitVec.toNat_ofNat]
    exact (Nat.mod_eq_of_lt hlt).symm
  have hk' : k.val = c.toNat := by omega
  generalize c.toNat = n at hn hc hk'
  subst hc
  obtain rfl : k = ⟨n, hn⟩ := Fin.ext hk'
  -- the cascade is fifteen nested choices on equalities of literal words; run it at each of the sixteen n
  unfold casc
  simp only [casc_sel_eq]
  interval_cases n <;> simp [lit]

/-! ## The result, index by index -/

/-- The dequantised weight at row `o`, column `d`: the code's word times the scale of column group `d / 64`. -/
def W (codes : SC.Idx → BitVec 32) (absmax : SM.Idx → EReal) (o d : Fin 4096) : EReal :=
  casc (codes (ix2 o d)) * absmax (ix2 o ⟨d.val / 64, by omega⟩)

/-- The result at `(b, s, o)`: `∑_d x[b,s,d] · W[o,d] + (∑_r (∑_d x[b,s,d] · A[r,d]) · B[o,r]) · 2`. -/
def Gat (x : SX.Idx → EReal) (codes : SC.Idx → BitVec 32) (absmax : SM.Idx → EReal) (A : SLA.Idx → EReal)
    (B : SLB.Idx → EReal) (b : Fin 4) (s : Fin 2048) (o : Fin 4096) : EReal :=
  (∑ d : Fin 4096, x (ix3 b s d) * W codes absmax o d)
    + (∑ r : Fin 16, (∑ d : Fin 4096, x (ix3 b s d) * A (ix2 r d)) * B (ix2 o r)) * two

/-- The whole result array. -/
def G (x : SX.Idx → EReal) (codes : SC.Idx → BitVec 32) (absmax : SM.Idx → EReal) (A : SLA.Idx → EReal)
    (B : SLB.Idx → EReal) : SX.Idx → EReal :=
  fun i => Gat x codes absmax A B (i 0) (i 1) (i 2)

/-! ## Pass 1 as the kernel computes it -/

/-- Pass 1's output at `(r, d)` from the codes, the scales and ANY 64 × 4096 expansion matrix `E`. -/
def R0at (codes : SC.Idx → BitVec 32) (absmax : SM.Idx → EReal) (E : SE.Idx → EReal) (r d : Fin 4096) : EReal :=
  casc (codes (ix2 r d)) * ∑ g : Fin 64, absmax (ix2 r g) * E (ix2 g d)

def R0 (codes : SC.Idx → BitVec 32) (absmax : SM.Idx → EReal) (E : SE.Idx → EReal) : SC.Idx → EReal :=
  fun j => R0at codes absmax E (j 0) (j 1)

/-- A sum against a one-hot row picks its one term. -/
theorem onehot_sum {n : ℕ} (a : Fin n → EReal) (q : Fin n) :
    ∑ g : Fin n, a g * (if g = q then (1 : EReal) else 0) = a q := by
  rw [Finset.sum_eq_single q]
  · rw [if_pos rfl, mul_one]
  · intro b _ hb
    rw [if_neg hb, mul_zero]
  · intro hq
    exact absurd (Finset.mem_univ q) hq

/-- With the 0/1 matrix `E g d = [g = d / 64]`, pass 1 writes the dequantised weight. -/
theorem R0at_onehot (codes : SC.Idx → BitVec 32) (absmax : SM.Idx → EReal) (E : SE.Idx → EReal)
    (hE : ∀ (g : Fin 64) (d : Fin 4096), E (ix2 g d) = if g.val = d.val / 64 then (1 : EReal) else 0) (r d : Fin 4096) :
    R0at codes absmax E r d = W codes absmax r d := by
  unfold R0at W
  congr 1
  have hd : d.val / 64 < 64 := by omega
  -- row d of E is the one-hot row at g = d / 64
  have hs : ∑ g : Fin 64, absmax (ix2 r g) * E (ix2 g d)
      = ∑ g : Fin 64, absmax (ix2 r g) * (if g = (⟨d.val / 64, hd⟩ : Fin 64) then (1 : EReal) else 0) := by
    refine Finset.sum_congr rfl fun g _ => ?_
    rw [hE]
    simp only [Fin.ext_iff]
  rw [hs]
  exact onehot_sum (fun g => absmax (ix2 r g)) ⟨d.val / 64, hd⟩

/-! ## Pass 2 as the kernel computes it -/

/-- Block `k` of the contraction at `(i, o)`: columns `512 k … 512 k + 511`. -/
def part (X : SXF.Idx → EReal) (Wq : SC.Idx → EReal) (i : Fin 8192) (o : Fin 4096) (k : ℕ) : EReal :=
  ∑ kk : Fin 512, X (ix2 i ⟨(512 * k + kk.val) % 4096, Nat.mod_lt _ (by decide)⟩)
    * Wq (ix2 o ⟨(512 * k + kk.val) % 4096, Nat.mod_lt _ (by decide)⟩)

/-- The running sum after block `n`, in the kernel's order: `0 + p 0`, then `+ p (n + 1)`. -/
def accK (p : ℕ → EReal) : ℕ → EReal
  | 0 => zero + p 0
  | n + 1 => accK p n + p (n + 1)

/-- Pass 2's output at `(i, o)`. -/
def R1at (X : SXF.Idx → EReal) (Wq : SC.Idx → EReal) (A' : SAF.Idx → EReal) (B' : SLB.Idx → EReal)
    (i : Fin 8192) (o : Fin 4096) : EReal :=
  accK (part X Wq i o) 7 + (∑ r : Fin 16, A' (ix2 i r) * B' (ix2 o r)) * two

def R1 (X : SXF.Idx → EReal) (Wq : SC.Idx → EReal) (A' : SAF.Idx → EReal) (B' : SLB.Idx → EReal) : SXF.Idx → EReal :=
  fun j => R1at X Wq A' B' (j 0) (j 1)

/-- The running sum after the eighth block is the sum of the eight blocks. -/
theorem accK_eq_sum (p : ℕ → EReal) : accK p 7 = ∑ k : Fin 8, p k.val := by
  have h : accK p 7 = zero + p 0 + p 1 + p 2 + p 3 + p 4 + p 5 + p 6 + p 7 := rfl
  rw [h, Fin.sum_univ_eight]
  have hz : zero = 0 := Ideal.ofBits_zero_f32
  rw [hz, zero_add]
  rfl

/-- Eight blocks of 512 make the 4096-long sum. -/
theorem sum_blocks (f : Fin 4096 → EReal) :
    ∑ k : Fin 8, ∑ kk : Fin 512, f ⟨(512 * k.val + kk.val) % 4096, Nat.mod_lt _ (by decide)⟩ = ∑ d : Fin 4096, f d := by
  -- (k, kk) ↦ 512 k + kk is a bijection from pairs to 0 … 4095, and 512 k + kk < 4096 is its own remainder
  rw [← Fintype.sum_prod_type']
  refine Fintype.sum_equiv ((finProdFinEquiv (m := 8) (n := 512)).trans (finCongr (by norm_num))) _ _ ?_
  rintro ⟨k, kk⟩
  congr 1
  apply Fin.ext
  have := k.isLt
  have := kk.isLt
  simp only [Equiv.trans_apply, finProdFinEquiv_apply_val, finCongr_apply, Fin.coe_cast]
  omega

/-- So pass 2's eight-block accumulation is the whole contraction. -/
theorem accK_part (X : SXF.Idx → EReal) (Wq : SC.Idx → EReal) (i : Fin 8192) (o : Fin 4096) :
    accK (part X Wq i o) 7 = ∑ d : Fin 4096, X (ix2 i d) * Wq (ix2 o d) := by
  rw [accK_eq_sum]
  unfold part
  exact sum_blocks (fun d => X (ix2 i d) * Wq (ix2 o d))

end Cert.QLora

end
-- ==== Proof.KReg0.lean ====
/-
  Pass 1 (the dequantising kernel, 16 grid points, each a 256-row band of all 4096 columns) read as a value: whatever
  the three input arrays hold when the region is entered, its output array ends holding, at (r, d), the cascade's word
  for the code at (r, d) times the product of row r of the scales with column d of the expansion matrix.
-/
import proofs.«402265_j75067438400019_2_alg».proof.Proof.Spec
import proofs.«402265_j75067438400019_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Reg0

open Cert.KernelIdeal Cert.KernelIdeal.Gen Cert.QLora
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The scales times the expansion matrix, entry by entry -/

/-- The left operand's row is the output's row. -/
theorem lhs_axis0 (j : S256x4096.Idx) (k : dot_S256x64_S64x4096_S256x4096_1_0_0_1_n_n.contr.Idx) :
    (dot_S256x64_S64x4096_S256x4096_1_0_0_1_n_n.lhsIdx j k 0).val = (j 0).val := rfl

/-- The left operand's column is the summation index. -/
theorem lhs_axis1 (j : S256x4096.Idx) (k : dot_S256x64_S64x4096_S256x4096_1_0_0_1_n_n.contr.Idx) :
    (dot_S256x64_S64x4096_S256x4096_1_0_0_1_n_n.lhsIdx j k 1).val = (k ⟨0, by decide⟩).val :=
  dot_S256x64_S64x4096_S256x4096_1_0_0_1_n_n.lhsIdx_val_of_single rfl j k

/-- The right operand's row is the summation index. -/
theorem rhs_axis0 (j : S256x4096.Idx) (k : dot_S256x64_S64x4096_S256x4096_1_0_0_1_n_n.contr.Idx) :
    (dot_S256x64_S64x4096_S256x4096_1_0_0_1_n_n.rhsIdx j k 0).val = (k ⟨0, by decide⟩).val :=
  dot_S256x64_S64x4096_S256x4096_1_0_0_1_n_n.rhsIdx_val_of_single rfl j k

/-- The right operand's column is the output's column. -/
theorem rhs_axis1 (j : S256x4096.Idx) (k : dot_S256x64_S64x4096_S256x4096_1_0_0_1_n_n.contr.Idx) :
    (dot_S256x64_S64x4096_S256x4096_1_0_0_1_n_n.rhsIdx j k 1).val = (j 1).val := rfl

/-- The product into the zero accumulator at (p, q) is the 64-term sum of row p of the left operand against column q of
    the right one. -/
theorem prod_at (x1 : Vec Ideal S256x64 .f32) (x2 : Vec Ideal S64x4096 .f32) (p : Fin 256) (q : Fin 4096) :
    (matmul (F := Ideal) (φ₁ := .f32) (φ₂ := .f32) dot_S256x64_S64x4096_S256x4096_1_0_0_1_n_n (some .fp32) x1 x2 (constant (F := Ideal) S256x4096 .f32 0x00000000#32) : FVec Ideal S256x4096 .f32) (ix2 p q)
      = ∑ g : Fin 64, x1 (ix2 p g) * x2 (ix2 g q) := by
  refine (Ideal.matmul_constant_zero_apply dot_S256x64_S64x4096_S256x4096_1_0_0_1_n_n (some .fp32) x1 x2 (ix2 p q)).trans ?_
  rw [← Equiv.sum_comp (contrEquiv1 dot_S256x64_S64x4096_S256x4096_1_0_0_1_n_n 64 rfl rfl).symm]
  refine Finset.sum_congr rfl fun g _ => ?_
  have hk : (((contrEquiv1 dot_S256x64_S64x4096_S256x4096_1_0_0_1_n_n 64 rfl rfl).symm g) ⟨0, by decide⟩ : ℕ) = g.val :=
    contrEquiv1_symm_val dot_S256x64_S64x4096_S256x4096_1_0_0_1_n_n 64 rfl rfl g
  have hl : dot_S256x64_S64x4096_S256x4096_1_0_0_1_n_n.lhsIdx (ix2 p q) ((contrEquiv1 dot_S256x64_S64x4096_S256x4096_1_0_0_1_n_n 64 rfl rfl).symm g) = ix2 p g := by
    funext a; apply Fin.ext
    match a with
    | ⟨0, _⟩ => exact lhs_axis0 _ _
    | ⟨1, _⟩ => exact (lhs_axis1 _ _).trans hk
  have hr : dot_S256x64_S64x4096_S256x4096_1_0_0_1_n_n.rhsIdx (ix2 p q) ((contrEquiv1 dot_S256x64_S64x4096_S256x4096_1_0_0_1_n_n 64 rfl rfl).symm g) = ix2 g q := by
    funext a; apply Fin.ext
    match a with
    | ⟨0, _⟩ => exact (rhs_axis0 _ _).trans hk
    | ⟨1, _⟩ => exact rhs_axis1 _ _
  rw [hl, hr]

/-! ## What one grid point computes, entry by entry -/

/-- From a 256-row band of codes, the band's scales and the whole expansion matrix, the body's stored block at (p, q) is
    the cascade's word for the code there times the 64-term sum of the scales' row p against the matrix's column q: the
    fifteen selects are the cascade's in the cascade's order, the reshape of the matrix to its own shape is the identity,
    the product accumulates into zero, and narrowing the format changes no extended real. -/
theorem pay_at (x0 : Vec Ideal S256x4096 .i32) (x1 : Vec Ideal S256x64 .f32) (x2 : Vec Ideal S64x4096 .f32)
    (p : Fin 256) (q : Fin 4096) :
    k0_pay1 x0 (k0_pay2 x0) x1 x2 (ix2 p q) = casc (x0 (ix2 p q)) * ∑ g : Fin 64, x1 (ix2 p g) * x2 (ix2 g q) := by
  unfold k0_pay1 k0_pay2
  have hsc : ∀ h, shapeCast S64x4096 x2 h = x2 := fun h => shapeCast_self x2 h
  simp only [hsc]
  refine Eq.trans ?_ (congrArg (casc (x0 (ix2 p q)) * ·) (prod_at x1 x2 p q))
  rfl

/-! ## The windows' blocks as parts of the arrays -/

/-- The zero offsets of a whole-block access, as a constant function. -/
theorem hz : (![0, 0] : Fin 2 → Nat) = fun _ => 0 := funext fun a => by
  match a with
  | ⟨0, _⟩ => rfl
  | ⟨1, _⟩ => rfl

/-- The index maps over the sixteen grid points: the windows of the codes, the scales and the output sit on row
    band t, the expansion matrix's window on its one block. -/
theorem band_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The codes' block at point t is rows 256 t … 256 t + 255 of the code array, all columns. -/
theorem codes_band (c : Dev nD) (t : Fin cfg0.N) (x : S256x4096.Idx) (k : SC.Idx)
    (hk0 : (k 0).val = 256 * t.val + (x 0).val) (hk1 : (k 1).val = (x 1).val) :
    (iblk0 V c 0 t : Vec Ideal S256x4096 .i32) x = (V c main_arg1 : SC.Idx → BitVec 32) k := by
  obtain ⟨e0, e1, -⟩ := band_index t
  unfold iblk0
  rw [View.read_apply]
  show V c main_arg1 _ = V c main_arg1 _
  congr 1
  funext a
  apply Fin.ext
  match a with
  | ⟨0, _⟩ => show win0_0.index t 0 * 256 + 1 * (x 0).val = (k 0).val; rw [e0, hk0]; omega
  | ⟨1, _⟩ => show win0_0.index t 1 * 4096 + 1 * (x 1).val = (k 1).val; rw [e1, hk1]; omega

/-- The scales' block at point t is rows 256 t … 256 t + 255 of the scale array, all 64 groups. -/
theorem scales_band (c : Dev nD) (t : Fin cfg0.N) (x : S256x64.Idx) (k : SM.Idx)
    (hk0 : (k 0).val = 256 * t.val + (x 0).val) (hk1 : (k 1).val = (x 1).val) :
    (iblk0 V c 1 t : Vec Ideal S256x64 .f32) x = (V c main_arg2 : SM.Idx → EReal) k := by
  obtain ⟨-, -, e0, e1, -⟩ := band_index t
  unfold iblk0
  rw [View.read_apply]
  show V c main_arg2 _ = V c main_arg2 _
  congr 1
  funext a
  apply Fin.ext
  match a with
  | ⟨0, _⟩ => show win0_1.index t 0 * 256 + 1 * (x 0).val = (k 0).val; rw [e0, hk0]; omega
  | ⟨1, _⟩ => show win0_1.index t 1 * 64 + 1 * (x 1).val = (k 1).val; rw [e1, hk1]; omega

/-- The expansion matrix's block is the whole matrix at every point. -/
theorem expansion_whole (c : Dev nD) (t : Fin cfg0.N) (x : S64x4096.Idx) (k : SE.Idx)
    (hk0 : (k 0).val = (x 0).val) (hk1 : (k 1).val = (x 1).val) :
    (iblk0 V c 2 t : Vec Ideal S64x4096 .f32) x = (V c main_v11 : SE.Idx → EReal) k := by
  obtain ⟨-, -, -, -, e0, e1, -⟩ := band_index t
  unfold iblk0
  rw [View.read_apply]
  show V c main_v11 _ = V c main_v11 _
  congr 1
  funext a
  apply Fin.ext
  match a with
  | ⟨0, _⟩ => show win0_2.index t 0 * 64 + 1 * (x 0).val = (k 0).val; rw [e0, hk0]; omega
  | ⟨1, _⟩ => show win0_2.index t 1 * 4096 + 1 * (x 1).val = (k 1).val; rw [e1, hk1]; omega

/-! ## A band of the output, and the whole array -/

/-- If a point's three blocks are row band T of the codes, row band T of the scales and the whole expansion matrix, then
    what its body stores at (p, q) is the pass's value at (256 T + p, q). -/
theorem band_value (x0 : Vec Ideal S256x4096 .i32) (x1 : Vec Ideal S256x64 .f32) (x2 : Vec Ideal S64x4096 .f32)
    (codes : SC.Idx → BitVec 32) (absmax : SM.Idx → EReal) (E : SE.Idx → EReal) (T : ℕ)
    (h0 : ∀ (x : S256x4096.Idx) (k : SC.Idx), (k 0).val = 256 * T + (x 0).val → (k 1).val = (x 1).val → x0 x = codes k)
    (h1 : ∀ (x : S256x64.Idx) (k : SM.Idx), (k 0).val = 256 * T + (x 0).val → (k 1).val = (x 1).val → x1 x = absmax k)
    (h2 : ∀ (x : S64x4096.Idx) (k : SE.Idx), (k 0).val = (x 0).val → (k 1).val = (x 1).val → x2 x = E k)
    (j : S256x4096.Idx) (i : SC.Idx) (hi0 : (i 0).val = 256 * T + (j 0).val) (hi1 : (i 1).val = (j 1).val) :
    k0_pay1 x0 (k0_pay2 x0) x1 x2 j = R0 codes absmax E i := by
  obtain ⟨p, q, rfl⟩ : ∃ (p : Fin 256) (q : Fin 4096), j = ix2 p q := ⟨j 0, j 1, eq_ix2 j⟩
  rw [pay_at, h0 (ix2 p q) i hi0 hi1]
  unfold R0 R0at
  refine congr (congrArg HMul.hMul (congrArg (fun k => casc (codes k)) (eq_ix2 i))) (Finset.sum_congr rfl fun g _ => ?_)
  rw [h1 (ix2 p g) (ix2 (i 0) g) hi0 rfl, h2 (ix2 g q) (ix2 g (i 1)) rfl hi1]

/-- What point t writes back is band t of the pass's value on the arrays as the region finds them. -/
theorem band_flushed (c : Dev nD) (t : Fin cfg0.N) :
    (dat0 (F := Ideal) V c).flushed 3 t
      = ((cfg0.win 3).blk t).view.read (Elt Ideal) (R0 (V c main_arg1) (V c main_arg2) (V c main_v11)) := by
  show (cfg0.win 3).cut (grid0.coords t) ((dat0 V c).after 3 t) = _
  rw [after0_3]
  unfold out0_3
  rw [View.canon_unit_zero hz]
  simp only [View.ld_unit_zero (S := S256x4096) hz, View.ld_unit_zero (S := S256x64) hz, View.ld_unit_zero (S := S64x4096) hz]
  obtain ⟨-, -, -, -, -, -, e0, e1⟩ := band_index t
  funext j
  rw [View.read_apply]
  show k0_pay1 (iblk0 V c 0 t) (k0_pay2 (iblk0 V c 0 t)) (iblk0 V c 1 t) (iblk0 V c 2 t) j
    = R0 (V c main_arg1) (V c main_arg2) (V c main_v11) (((cfg0.win 3).blk t).view.emb j)
  refine band_value (iblk0 V c 0 t) (iblk0 V c 1 t) (iblk0 V c 2 t) (V c main_arg1) (V c main_arg2) (V c main_v11) t.val
    (fun x k => codes_band V c t x k) (fun x k => scales_band V c t x k) (fun x k => expansion_whole V c t x k)
    j (((cfg0.win 3).blk t).view.emb j) ?_ ?_
  · show win0_3.index t 0 * 256 + 1 * (j 0).val = 256 * t.val + (j 0).val
    rw [e0]; omega
  · show win0_3.index t 1 * 4096 + 1 * (j 1).val = (j 1).val
    rw [e1]; omega

/-- Row r of the output array lies in the band of point r / 256, and every point writes its band back. -/
theorem bands_cover (i : SC.Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 16 := N_0
  let t : Fin cfg0.N := ⟨(i 0).val / 256, by rw [hN]; omega⟩
  obtain ⟨-, -, -, -, -, -, e0, e1⟩ := band_index t
  have ht : t.val = (i 0).val / 256 := rfl
  refine ⟨t, flush0_3 t, ?_⟩
  show i ∈ ((View.whole main_v12).slice (win0_3.rect t)).set
  rw [View.set_slice_whole, Rect.mem_set_unit]
  intro a
  match a with
  | ⟨0, _⟩ =>
    show win0_3.index t 0 * 256 ≤ (i 0).val ∧ (i 0).val < win0_3.index t 0 * 256 + 256
    rw [e0, ht]; omega
  | ⟨1, _⟩ =>
    show win0_3.index t 1 * 4096 ≤ (i 1).val ∧ (i 1).val < win0_3.index t 1 * 4096 + 4096
    rw [e1]; omega

/-- The output array after the sixteen points: every band written once, each with the pass's value on its rows. -/
theorem final0 (c : Dev nD) :
    (dat0 (F := Ideal) V c).arrAt 3 cfg0.N = R0 (V c main_arg1) (V c main_arg2) (V c main_v11) :=
  (dat0 (F := Ideal) V c).arrAt_eq_of_cover 3 (R0 (V c main_arg1) (V c main_arg2) (V c main_v11))
    (fun t _ => band_flushed V c t) (bands_cover)

end Cert.KernelIdeal.Reg0

end
-- ==== Proof.KReg1.lean ====
/-
  Pass 2 (the matmul kernel, grid 8 × 4 × 8: output block (i, j) of 1024 × 1024 accumulated over eight steps k of 512
  columns, zeroed at k = 0, the low-rank term added at k = 7, written back after k = 7) read as a value: whatever its
  four input arrays hold when the region is entered, its output array ends holding, at (row, col), the eight-block
  running sum of the contraction plus the doubled low-rank product.
-/
import proofs.«402265_j75067438400019_2_alg».proof.Proof.Spec
import proofs.«402265_j75067438400019_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Reg1

open Cert.KernelIdeal Cert.KernelIdeal.Gen Cert.QLora
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

section Cases
variable {F : FTy → Type} [FloatOps F]

/-- The zero offset, as a function. -/
theorem hz : (![0, 0] : Fin 2 → Nat) = fun _ => 0 := funext fun a => by fin_cases a <;> rfl

/-- A middle step (1 ≤ k ≤ 6) leaves the carried block plus the product of the two input blocks. -/
theorem out_B (c : Dev nD) (i : grid1.Coords) (a3 : Memref sig .tc .vmem S1024x512 .bf16) (h3 : a3.IsWhole) (a4 : Memref sig .tc .vmem S1024x512 .bf16) (h4 : a4.IsWhole) (a5 : Memref sig .tc .vmem S1024x16 .bf16) (h5 : a5.IsWhole) (a6 : Memref sig .tc .vmem S1024x16 .bf16) (h6 : a6.IsWhole) (a7 : Memref sig .tc .vmem S1024x1024 .f32) (h7 : a7.IsWhole) (hc0 : ¬cond1_0 i) (hc1 : ¬cond1_1 i) (x0 : Vec F S1024x512 .bf16) (x1 : Vec F S1024x512 .bf16) (x2 : Vec F S1024x16 .bf16) (x3 : Vec F S1024x16 .bf16) (xo : Vec F S1024x1024 .f32) :
    out1_B_4 c i a3 h3 a4 h4 a5 h5 a6 h6 a7 h7 hc0 hc1 x0 x1 x2 x3 xo = k1_pay2 x0 x1 xo := by
  unfold out1_B_4
  rw [View.read_writes_eq_canon _ _ _ (cover1_B_4 c i a3 h3 a4 h4 a5 h5 a6 h6 a7 h7 hc0 hc1 x0 x1 x2 x3 xo)]
  unfold kernelRun1_B
  dsimp only
  rw [View.canon_unit_zero hz]
  simp only [View.readAt_eq_ld, h3.read_unread, h4.read_unread, h7.read_unread, View.ld_unit_zero (S := S1024x512) hz,
    View.ld_unit_zero (S := S1024x1024) hz]

/-- The first step (k = 0) leaves the zero block plus the product of the two input blocks. -/
theorem out_A (c : Dev nD) (i : grid1.Coords) (a3 : Memref sig .tc .vmem S1024x512 .bf16) (h3 : a3.IsWhole) (a4 : Memref sig .tc .vmem S1024x512 .bf16) (h4 : a4.IsWhole) (a5 : Memref sig .tc .vmem S1024x16 .bf16) (h5 : a5.IsWhole) (a6 : Memref sig .tc .vmem S1024x16 .bf16) (h6 : a6.IsWhole) (a7 : Memref sig .tc .vmem S1024x1024 .f32) (h7 : a7.IsWhole) (hc0 : cond1_0 i) (hc1 : ¬cond1_1 i) (x0 : Vec F S1024x512 .bf16) (x1 : Vec F S1024x512 .bf16) (x2 : Vec F S1024x16 .bf16) (x3 : Vec F S1024x16 .bf16) :
    out1_A_4 c i a3 h3 a4 h4 a5 h5 a6 h6 a7 h7 hc0 hc1 x0 x1 x2 x3 = k1_pay2 x0 x1 (k1_pay1 (F := F)) := by
  unfold out1_A_4
  rw [View.read_writes_eq_canon _ _ _ (cover1_A_4 c i a3 h3 a4 h4 a5 h5 a6 h6 a7 h7 hc0 hc1 x0 x1 x2 x3)]
  unfold kernelRun1_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x512) hz]

/-- The last step (k = 7) leaves the carried block plus the product, plus twice the low-rank product. -/
theorem out_C (c : Dev nD) (i : grid1.Coords) (a3 : Memref sig .tc .vmem S1024x512 .bf16) (h3 : a3.IsWhole) (a4 : Memref sig .tc .vmem S1024x512 .bf16) (h4 : a4.IsWhole) (a5 : Memref sig .tc .vmem S1024x16 .bf16) (h5 : a5.IsWhole) (a6 : Memref sig .tc .vmem S1024x16 .bf16) (h6 : a6.IsWhole) (a7 : Memref sig .tc .vmem S1024x1024 .f32) (h7 : a7.IsWhole) (hc0 : ¬cond1_0 i) (hc1 : cond1_1 i) (x0 : Vec F S1024x512 .bf16) (x1 : Vec F S1024x512 .bf16) (x2 : Vec F S1024x16 .bf16) (x3 : Vec F S1024x16 .bf16) (xo : Vec F S1024x1024 .f32) :
    out1_C_4 c i a3 h3 a4 h4 a5 h5 a6 h6 a7 h7 hc0 hc1 x0 x1 x2 x3 xo = k1_pay3 x2 x3 (k1_pay2 x0 x1 xo) := by
  unfold out1_C_4
  rw [View.read_writes_eq_canon _ _ _ (cover1_C_4 c i a3 h3 a4 h4 a5 h5 a6 h6 a7 h7 hc0 hc1 x0 x1 x2 x3 xo)]
  unfold kernelRun1_C
  dsimp only
  sl_unfold_words
  rw [View.canon_cons_unit_zero (S := S1024x1024) hz, View.readCov_unit_zero (S := S1024x1024) _ hz]
  simp only [View.readAt_eq_ld, h3.read_unread, h4.read_unread, h5.read_unread, h6.read_unread, h7.read_unread,
    View.ld_unit_zero (S := S1024x512) hz, View.ld_unit_zero (S := S1024x16) hz, View.ld_unit_zero (S := S1024x1024) hz]

end Cases

section Payloads

abbrev D512 : DotDims S1024x512 S1024x512 S1024x1024 := dot_S1024x512_S1024x512_S1024x1024_1_1_0_0_n_n
abbrev D16 : DotDims S1024x16 S1024x16 S1024x1024 := dot_S1024x16_S1024x16_S1024x1024_1_1_0_0_n_n

/-- One block step at an entry: the carried entry plus the 512-long product of row p of the first block with row q of
    the second (both operands are contracted along their second axis). -/
theorem pay2_apply (x0 x1 : FVec Ideal S1024x512 .bf16) (xo : FVec Ideal S1024x1024 .f32) (p q : Fin 1024) :
    k1_pay2 (F := Ideal) x0 x1 xo (ix2 p q) = xo (ix2 p q) + ∑ kk : Fin 512, x0 (ix2 p kk) * x1 (ix2 q kk) := by
  unfold k1_pay2
  simp only [shapeCast_self]
  show xo (ix2 p q) + FloatOps.matmul D512 none x0 x1 (constant S1024x1024 .f32 0x00000000#32) (ix2 p q) = _
  refine congrArg (xo (ix2 p q) + ·) ?_
  refine (Ideal.matmul_constant_zero_apply D512 none x0 x1 (ix2 p q)).trans ?_
  rw [← Equiv.sum_comp (contrEquiv1 D512 512 rfl rfl).symm]
  refine Finset.sum_congr rfl fun kk _ => ?_
  have hc := contrEquiv1_symm_val D512 512 rfl rfl kk
  have hl : D512.lhsIdx (ix2 p q) ((contrEquiv1 D512 512 rfl rfl).symm kk) = ix2 p kk := by
    funext ax; apply Fin.ext
    match ax with
    | ⟨0, _⟩ => simp [DotDims.lhsIdx, D512, dot_S1024x512_S1024x512_S1024x1024_1_1_0_0_n_n]; rfl
    | ⟨1, _⟩ => simp [DotDims.lhsIdx, D512, dot_S1024x512_S1024x512_S1024x1024_1_1_0_0_n_n]; exact hc
  have hr : D512.rhsIdx (ix2 p q) ((contrEquiv1 D512 512 rfl rfl).symm kk) = ix2 q kk := by
    funext ax; apply Fin.ext
    match ax with
    | ⟨0, _⟩ => simp [DotDims.rhsIdx, D512, dot_S1024x512_S1024x512_S1024x1024_1_1_0_0_n_n]; rfl
    | ⟨1, _⟩ => simp [DotDims.rhsIdx, D512, dot_S1024x512_S1024x512_S1024x1024_1_1_0_0_n_n]; exact hc
  rw [hl, hr]

/-- The closing step at an entry: the carried entry plus twice the 16-long product of row p of the third block with
    row q of the fourth. -/
theorem pay3_apply (x2 x3 : FVec Ideal S1024x16 .bf16) (y : FVec Ideal S1024x1024 .f32) (p q : Fin 1024) :
    k1_pay3 (F := Ideal) x2 x3 y (ix2 p q) = y (ix2 p q) + (∑ r : Fin 16, x2 (ix2 p r) * x3 (ix2 q r)) * two := by
  unfold k1_pay3
  simp only [shapeCast_self]
  show y (ix2 p q) + FloatOps.matmul D16 none x2 x3 (constant S1024x1024 .f32 0x00000000#32) (ix2 p q) * two = _
  refine congrArg (fun z => y (ix2 p q) + z * two) ?_
  refine (Ideal.matmul_constant_zero_apply D16 none x2 x3 (ix2 p q)).trans ?_
  rw [← Equiv.sum_comp (contrEquiv1 D16 16 rfl rfl).symm]
  refine Finset.sum_congr rfl fun r _ => ?_
  have hc := contrEquiv1_symm_val D16 16 rfl rfl r
  have hl : D16.lhsIdx (ix2 p q) ((contrEquiv1 D16 16 rfl rfl).symm r) = ix2 p r := by
    funext ax; apply Fin.ext
    match ax with
    | ⟨0, _⟩ => simp [DotDims.lhsIdx, D16, dot_S1024x16_S1024x16_S1024x1024_1_1_0_0_n_n]; rfl
    | ⟨1, _⟩ => simp [DotDims.lhsIdx, D16, dot_S1024x16_S1024x16_S1024x1024_1_1_0_0_n_n]; exact hc
  have hr : D16.rhsIdx (ix2 p q) ((contrEquiv1 D16 16 rfl rfl).symm r) = ix2 q r := by
    funext ax; apply Fin.ext
    match ax with
    | ⟨0, _⟩ => simp [DotDims.rhsIdx, D16, dot_S1024x16_S1024x16_S1024x1024_1_1_0_0_n_n]; rfl
    | ⟨1, _⟩ => simp [DotDims.rhsIdx, D16, dot_S1024x16_S1024x16_S1024x1024_1_1_0_0_n_n]; exact hc
  rw [hl, hr]

/-- The reset block holds the zero word everywhere. -/
theorem pay1_apply (p q : Fin 1024) : k1_pay1 (F := Ideal) (ix2 p q) = zero := rfl

end Payloads

section Blocks

/-- The four input arrays as the region finds them, and the four input blocks at a point, at their literal types. -/
abbrev arrX (c : Dev nD) : SXF.Idx → EReal := V c main_v13
abbrev arrW (c : Dev nD) : SC.Idx → EReal := V c main_v12
abbrev arrA (c : Dev nD) : SAF.Idx → EReal := V c main_v14
abbrev arrB (c : Dev nD) : SLB.Idx → EReal := V c main_v15
abbrev blkX (c : Dev nD) (t : Fin cfg1.N) : FVec Ideal S1024x512 .bf16 := iblk1 V c 0 t
abbrev blkW (c : Dev nD) (t : Fin cfg1.N) : FVec Ideal S1024x512 .bf16 := iblk1 V c 1 t
abbrev blkA (c : Dev nD) (t : Fin cfg1.N) : FVec Ideal S1024x16 .bf16 := iblk1 V c 2 t
abbrev blkB (c : Dev nD) (t : Fin cfg1.N) : FVec Ideal S1024x16 .bf16 := iblk1 V c 3 t

/-- The block indices of the five windows at point t = 32 i + 8 j + k: (i, k), (j, k), (i, 0), (j, 0), (i, j). -/
theorem idx_facts : ∀ t : Fin cfg1.N,
    win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = t.val / 32 ∧ win1_2.index t (1 : Fin 2) = 0
    ∧ win1_3.index t (0 : Fin 2) = t.val / 8 % 4 ∧ win1_3.index t (1 : Fin 2) = 0
    ∧ win1_4.index t (0 : Fin 2) = t.val / 32 ∧ win1_4.index t (1 : Fin 2) = t.val / 8 % 4 :=
  (by decide +kernel : ∀ t : Fin grid1.N, _)

/-- The first block at (p, kk) is the first array at (1024 i + p, 512 k + kk). -/
theorem blkX_apply (c : Dev nD) (t : Fin cfg1.N) (p : Fin 1024) (kk : Fin 512) (r : Fin 8192) (d : Fin 4096)
    (hr : r.val = 1024 * (t.val / 32) + p.val) (hd : d.val = 512 * (t.val % 8) + kk.val) :
    blkX V c t (ix2 p kk) = arrX V c (ix2 r d) := by
  obtain ⟨e0, e1, -⟩ := idx_facts t
  unfold blkX iblk1
  rw [View.read_apply]
  show V c main_v13 _ = V c main_v13 _
  congr 1
  funext a
  apply Fin.ext
  match a with
  | ⟨0, _⟩ => show win1_0.index t (0 : Fin 2) * 1024 + 1 * p.val = r.val; rw [e0]; omega
  | ⟨1, _⟩ => show win1_0.index t (1 : Fin 2) * 512 + 1 * kk.val = d.val; rw [e1]; omega

/-- The second block at (q, kk) is the second array at (1024 j + q, 512 k + kk). -/
theorem blkW_apply (c : Dev nD) (t : Fin cfg1.N) (q : Fin 1024) (kk : Fin 512) (o : Fin 4096) (d : Fin 4096)
    (ho : o.val = 1024 * (t.val / 8 % 4) + q.val) (hd : d.val = 512 * (t.val % 8) + kk.val) :
    blkW V c t (ix2 q kk) = arrW V c (ix2 o d) := by
  obtain ⟨-, -, e0, e1, -⟩ := idx_facts t
  unfold blkW iblk1
  rw [View.read_apply]
  show V c main_v12 _ = V c main_v12 _
  congr 1
  funext a
  apply Fin.ext
  match a with
  | ⟨0, _⟩ => show win1_1.index t (0 : Fin 2) * 1024 + 1 * q.val = o.val; rw [e0]; omega
  | ⟨1, _⟩ => show win1_1.index t (1 : Fin 2) * 512 + 1 * kk.val = d.val; rw [e1]; omega

/-- The third block at (p, s) is the third array at (1024 i + p, s). -/
theorem blkA_apply (c : Dev nD) (t : Fin cfg1.N) (p : Fin 1024) (s : Fin 16) (r : Fin 8192)
    (hr : r.val = 1024 * (t.val / 32) + p.val) :
    blkA V c t (ix2 p s) = arrA V c (ix2 r s) := by
  obtain ⟨-, -, -, -, e0, e1, -⟩ := idx_facts t
  unfold blkA iblk1
  rw [View.read_apply]
  show V c main_v14 _ = V c main_v14 _
  congr 1
  funext a
  apply Fin.ext
  match a with
  | ⟨0, _⟩ => show win1_2.index t (0 : Fin 2) * 1024 + 1 * p.val = r.val; rw [e0]; omega
  | ⟨1, _⟩ => show win1_2.index t (1 : Fin 2) * 16 + 1 * s.val = s.val; rw [e1]; omega

/-- The fourth block at (q, s) is the fourth array at (1024 j + q, s). -/
theorem blkB_apply (c : Dev nD) (t : Fin cfg1.N) (q : Fin 1024) (s : Fin 16) (o : Fin 4096)
    (ho : o.val = 1024 * (t.val / 8 % 4) + q.val) :
    blkB V c t (ix2 q s) = arrB V c (ix2 o s) := by
  obtain ⟨-, -, -, -, -, -, e0, e1, -⟩ := idx_facts t
  unfold blkB iblk1
  rw [View.read_apply]
  show V c main_v15 _ = V c main_v15 _
  congr 1
  funext a
  apply Fin.ext
  match a with
  | ⟨0, _⟩ => show win1_3.index t (0 : Fin 2) * 1024 + 1 * q.val = o.val; rw [e0]; omega
  | ⟨1, _⟩ => show win1_3.index t (1 : Fin 2) * 16 + 1 * s.val = s.val; rw [e1]; omega

end Blocks

section Invariant

/-- At point t = 32 i + 8 j + k the product of row p of the first block with row q of the second is block k of the
    contraction at (1024 i + p, 1024 j + q). -/
theorem step_sum (c : Dev nD) (t : Fin cfg1.N) (p q : Fin 1024) (r : Fin 8192) (o : Fin 4096)
    (hr : r.val = 1024 * (t.val / 32) + p.val) (ho : o.val = 1024 * (t.val / 8 % 4) + q.val) :
    ∑ kk : Fin 512, blkX V c t (ix2 p kk) * blkW V c t (ix2 q kk) = part (arrX V c) (arrW V c) r o (t.val % 8) := by
  unfold part
  refine Finset.sum_congr rfl fun kk _ => ?_
  have hk : kk.val < 512 := kk.isLt
  have hd : (512 * (t.val % 8) + kk.val) % 4096 = 512 * (t.val % 8) + kk.val := by omega
  rw [blkX_apply V c t p kk r ⟨(512 * (t.val % 8) + kk.val) % 4096, Nat.mod_lt _ (by decide)⟩ hr hd,
    blkW_apply V c t q kk o ⟨(512 * (t.val % 8) + kk.val) % 4096, Nat.mod_lt _ (by decide)⟩ ho hd]

/-- The running sum one block further. -/
theorem accK_pred (P : ℕ → EReal) (m : ℕ) (hm : 0 < m) : accK P (m - 1) + P m = accK P m := by
  obtain ⟨k, rfl⟩ : ∃ k, m = k + 1 := ⟨m - 1, by omega⟩
  rfl

/-- Before the closing step, the output block after point n = 32 i + 8 j + k holds at (p, q) the running sum of
    blocks 0 … k of the contraction at (1024 i + p, 1024 j + q): zero plus block 0 at k = 0, one more block per point. -/
theorem acc_eq (c : Dev nD) (n : ℕ) : ∀ (hn : n < cfg1.N), n % 8 ≠ 7 → ∀ (p q : Fin 1024) (r : Fin 8192) (o : Fin 4096),
    r.val = 1024 * (n / 32) + p.val → o.val = 1024 * (n / 8 % 4) + q.val →
    outsAt1 V c n hn (ix2 p q) = accK (part (arrX V c) (arrW V c) r o) (n % 8) := by
  induction n using Nat.strong_induction_on with
  | _ n ih =>
    intro hn h7 p q r o hr ho
    have hN : cfg1.N = 256 := N_1
    by_cases h0 : n % 8 = 0
    · refine (congrFun (outsAt1_A V c ⟨n, hn⟩ h0 h7) (ix2 p q)).trans ?_
      refine (congrFun (out_A (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) ((hcond1_0 ⟨n, hn⟩).mpr h0) (fun h => h7 ((hcond1_1 ⟨n, hn⟩).mp h)) (blkX V c ⟨n, hn⟩) (blkW V c ⟨n, hn⟩) (blkA V c ⟨n, hn⟩) (blkB V c ⟨n, hn⟩)) (ix2 p q)).trans ?_
      refine (pay2_apply (blkX V c ⟨n, hn⟩) (blkW V c ⟨n, hn⟩) (k1_pay1 (F := Ideal)) p q).trans ?_
      rw [step_sum V c ⟨n, hn⟩ p q r o hr ho, pay1_apply]
      show zero + part _ _ r o (n % 8) = accK _ (n % 8)
      rw [h0]; rfl
    · have hn' : n - 1 < cfg1.N := by omega
      refine (congrFun (outsAt1_B V c ⟨n, hn⟩ h0 h7) (ix2 p q)).trans ?_
      refine (congrFun (out_B (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (fun h => h0 ((hcond1_0 ⟨n, hn⟩).mp h)) (fun h => h7 ((hcond1_1 ⟨n, hn⟩).mp h)) (blkX V c ⟨n, hn⟩) (blkW V c ⟨n, hn⟩) (blkA V c ⟨n, hn⟩) (blkB V c ⟨n, hn⟩) (outsAt1 V c (n - 1) hn')) (ix2 p q)).trans ?_
      refine (pay2_apply (blkX V c ⟨n, hn⟩) (blkW V c ⟨n, hn⟩) (outsAt1 V c (n - 1) hn') p q).trans ?_
      rw [step_sum V c ⟨n, hn⟩ p q r o hr ho, ih (n - 1) (by omega) hn' (by omega) p q r o (by omega) (by omega)]
      show accK _ ((n - 1) % 8) + part _ _ r o (n % 8) = accK _ (n % 8)
      rw [show (n - 1) % 8 = n % 8 - 1 by omega]
      exact accK_pred _ _ (by omega)

/-- At a closing point (k = 7) the output block holds at (p, q) the result at (1024 i + p, 1024 j + q): the eight-block
    running sum plus twice the 16-long product of the two low-rank rows. -/
theorem flush_val (c : Dev nD) (t : Fin cfg1.N) (h7 : t.val % 8 = 7) (p q : Fin 1024) (r : Fin 8192) (o : Fin 4096)
    (hr : r.val = 1024 * (t.val / 32) + p.val) (ho : o.val = 1024 * (t.val / 8 % 4) + q.val) :
    outsAt1 V c t.val t.isLt (ix2 p q) = R1at (arrX V c) (arrW V c) (arrA V c) (arrB V c) r o := by
  have hN : cfg1.N = 256 := N_1
  have hlt : t.val < cfg1.N := t.isLt
  have h0 : ¬ t.val % 8 = 0 := by omega
  have hn' : t.val - 1 < cfg1.N := by omega
  refine (congrFun (outsAt1_C V c t h0 h7) (ix2 p q)).trans ?_
  refine (congrFun (out_C (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h7) (blkX V c t) (blkW V c t) (blkA V c t) (blkB V c t) (outsAt1 V c (t.val - 1) hn')) (ix2 p q)).trans ?_
  refine (pay3_apply (blkA V c t) (blkB V c t) (k1_pay2 (F := Ideal) (blkX V c t) (blkW V c t) (outsAt1 V c (t.val - 1) hn')) p q).trans ?_
  rw [pay2_apply (blkX V c t) (blkW V c t) (outsAt1 V c (t.val - 1) hn') p q, step_sum V c t p q r o hr ho,
    acc_eq V c (t.val - 1) hn' (by omega) p q r o (by omega) (by omega)]
  unfold R1at
  rw [show (t.val - 1) % 8 = 6 by omega, h7]
  refine congrArg₂ (· + ·) rfl (congrArg (· * two) (Finset.sum_congr rfl fun s _ => ?_))
  rw [blkA_apply V c t p s r hr, blkB_apply V c t q s o ho]

end Invariant

section Final

/-- At a closing point the output block at a block index j is the result at the array index i that j names there. -/
theorem flush_at (c : Dev nD) (t : Fin cfg1.N) (h7 : t.val % 8 = 7) (j : S1024x1024.Idx) (i : SXF.Idx)
    (h0 : (i 0).val = 1024 * (t.val / 32) + (j 0).val) (h1 : (i 1).val = 1024 * (t.val / 8 % 4) + (j 1).val) :
    outsAt1 V c t.val t.isLt j = R1 (arrX V c) (arrW V c) (arrA V c) (arrB V c) i := by
  obtain ⟨p, q, rfl⟩ : ∃ (p q : Fin 1024), j = ix2 p q := ⟨j 0, j 1, eq_ix2 j⟩
  exact flush_val V c t h7 p q (i 0) (i 1) h0 h1

/-- What a closing point writes back is its block of the result. -/
theorem flushed_eq (c : Dev nD) (t : Fin cfg1.N) (hf : (cfg1.win 4).flush t = true) :
    (dat1 V c).flushed 4 t = ((cfg1.win 4).blk t).view.read (Elt Ideal) (R1 (arrX V c) (arrW V c) (arrA V c) (arrB V c)) := by
  have h7 : t.val % 8 = 7 := (flush1_4 t).mp hf
  obtain ⟨-, -, -, -, -, -, -, -, e0, e1⟩ := idx_facts t
  show (cfg1.win 4).cut (grid1.coords t) ((dat1 V c).after 4 t) = _
  rw [after1_4]
  funext j
  show outsAt1 V c t.val t.isLt j = R1 (arrX V c) (arrW V c) (arrA V c) (arrB V c) (((cfg1.win 4).blk t).view.emb j)
  refine flush_at V c t h7 j _ ?_ ?_
  · show win1_4.index t (0 : Fin 2) * 1024 + 1 * (j 0).val = 1024 * (t.val / 32) + (j 0).val
    rw [e0]; omega
  · show win1_4.index t (1 : Fin 2) * 1024 + 1 * (j 1).val = 1024 * (t.val / 8 % 4) + (j 1).val
    rw [e1]; omega

/-- An index of the output array is in point t's block iff each coordinate is in the block's range on its axis. -/
theorem mem_blk (t : Fin cfg1.N) (i : SXF.Idx) :
    i ∈ ((cfg1.win 4).blk t).view.set ↔ ∀ a : Fin 2, win1_4.index t a * S1024x1024.size a ≤ (i a).val
      ∧ (i a).val < win1_4.index t a * S1024x1024.size a + S1024x1024.size a := by
  show i ∈ ((View.whole main_v16).slice (win1_4.rect t)).set ↔ _
  rw [View.set_slice_whole, Rect.mem_set_unit]
  exact Iff.rfl

/-- Every index (row, col) of the output array is in the block of the closing point 32 (row / 1024) + 8 (col / 1024) + 7. -/
theorem cover (i : SXF.Idx) : ∃ t : Fin cfg1.N, (cfg1.win 4).flush t = true ∧ i ∈ ((cfg1.win 4).blk t).view.set := by
  have hN : cfg1.N = 256 := N_1
  have hi0 : (i 0).val < 8192 := idx2_lt0 i
  have hi1 : (i 1).val < 4096 := idx2_lt1 i
  have ht : 32 * ((i 0).val / 1024) + 8 * ((i 1).val / 1024) + 7 < cfg1.N := by omega
  obtain ⟨-, -, -, -, -, -, -, -, e0, e1⟩ := idx_facts ⟨32 * ((i 0).val / 1024) + 8 * ((i 1).val / 1024) + 7, ht⟩
  refine ⟨⟨32 * ((i 0).val / 1024) + 8 * ((i 1).val / 1024) + 7, ht⟩, (flush1_4 _).mpr (by dsimp only; omega), ?_⟩
  rw [mem_blk]
  intro a
  match a with
  | ⟨0, _⟩ =>
    show win1_4.index _ (0 : Fin 2) * 1024 ≤ (i 0).val ∧ (i 0).val < win1_4.index _ (0 : Fin 2) * 1024 + 1024
    rw [e0]; dsimp only; omega
  | ⟨1, _⟩ =>
    show win1_4.index _ (1 : Fin 2) * 1024 ≤ (i 1).val ∧ (i 1).val < win1_4.index _ (1 : Fin 2) * 1024 + 1024
    rw [e1]; dsimp only; omega

/-- The output array after the region is the result, index by index. -/
theorem final1 (c : Dev nD) :
    (dat1 (F := Ideal) V c).arrAt 4 cfg1.N = R1 (V c main_v13) (V c main_v12) (V c main_v14) (V c main_v15) :=
  (dat1 V c).arrAt_eq_of_cover 4 (R1 (arrX V c) (arrW V c) (arrA V c) (arrB V c)) (flushed_eq V c) cover

end Final

end Cert.KernelIdeal.Reg1

end
-- ==== Proof.KHostA.lean ====
/-
  What the host operations around the two kernels put in each kernel's input arrays, and how the result is read off the
  second kernel's output, index by index at the ideal instance: x flattened to 8192 rows (row 2048·b + s), the low-rank
  projection x·Aᵀ as a plain sum, B unchanged (a change of float format is the identity), the first kernel's output
  handed to the second untouched, the codes and scales as launched, and the final regrouping 8192 → 4 × 2048.
-/
import proofs.«402265_j75067438400019_2_alg».proof.Proof.Spec
import proofs.«402265_j75067438400019_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Idealize.ShloMosaic.Lib.StableHlo.Run
import Idealize.ShloMosaic.Lib.StackMember

noncomputable section

namespace Cert.KernelIdeal.Host

open Cert.KernelIdeal Cert.KernelIdeal.Gen Cert.QLora
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The launch contents of the arguments, as arrays of extended reals over their literal shapes. -/
abbrev xarr (c : Dev nD) : SX.Idx → EReal := m ((c.tc : Thread nD τ).loc main_arg0)
abbrev Aarr (c : Dev nD) : SLA.Idx → EReal := m ((c.tc : Thread nD τ).loc main_arg3)
abbrev Barr (c : Dev nD) : SLB.Idx → EReal := m ((c.tc : Thread nD τ).loc main_arg4)

/-- A stretch of host operations leaves alone every buffer that none of its operations writes. -/
local macro "unwritten" ops:ident : tactic => `(tactic| exact StableHlo.after_of_forall_not_mem _ _ (List.forall_iff_forall_mem.mp (by
  simp only [$ops:ident, List.Forall, StableHlo.nullary_writes, StableHlo.unary_writes, StableHlo.binary_writes, StableHlo.ternary_writes, StableHlo.reshape_writes, Finset.mem_singleton]
  repeat' apply And.intro
  all_goals exact StableHlo.devRef_ne_of_ne (by decide))))

/-! ## The two regroupings and the product, read at an index -/

/-- 4 × 2048 × 4096 regrouped as 8192 × 4096: row `i` is the pair (i / 2048, i % 2048), the row-major positions being
    ((i / 2048) · 2048 + i % 2048) · 4096 + d = i · 4096 + d. -/
theorem flat_apply {α : Type} (x : SX.Idx → α) (h : SX.ShapeCasts SXF) (i : Fin 8192) (d : Fin 4096) :
    shapeCast SXF x h (ix2 i d) = x (ix3 ⟨i.val / 2048, by omega⟩ ⟨i.val % 2048, Nat.mod_lt _ (by decide)⟩ d) :=
  shapeCast_apply x h _ _ (by
    rw [Shape.rowMajor_val_three, Shape.rowMajor_val_two]
    show ((i.val / 2048) * 2048 + i.val % 2048) * 4096 + d.val = i.val * 4096 + d.val
    omega)

/-- 8192 × 4096 regrouped as 4 × 2048 × 4096: the entry at (b, s, o) is row 2048·b + s. -/
theorem unflat_apply {α : Type} (y : SXF.Idx → α) (h : SXF.ShapeCasts SX) (b : Fin 4) (s : Fin 2048) (o : Fin 4096) :
    shapeCast SX y h (ix3 b s o) = y (ix2 ⟨2048 * b.val + s.val, by omega⟩ o) :=
  shapeCast_apply y h _ _ (by
    rw [Shape.rowMajor_val_three, Shape.rowMajor_val_two]
    show (2048 * b.val + s.val) * 4096 + o.val = (b.val * 2048 + s.val) * 4096 + o.val
    omega)

/-- The 8192 × 4096 by 4096 × 16 product (left axis 1 against right axis 0) at (i, k) is the plain sum over the
    contracted coordinate: its dimension numbers are those of the plain matrix product. -/
theorem dot_apply (l : FVec Ideal SXF .f32) (r : FVec Ideal SLB .f32) (i : Fin 8192) (k : Fin 16) :
    Host.dotGeneral dot_S8192x4096_S4096x16_S8192x16_1_0_0_1_n_n none l r (ix2 i k) = ∑ d : Fin 4096, l (ix2 i d) * r (ix2 d k) :=
  StackMember.dotGeneral_plain_apply (m := 8192) (n := 16) (k := 4096) none l r i k

/-! ## The first stretch: x flattened, A transposed, their product -/

theorem W1_v0 (c : Dev nD) : (W1 m ρ c (Proc.devRef .tc main_v0) : SXF.Idx → EReal)
    = shapeCast SXF (xarr m c) shapeCasts_S4x2048x4096_S8192x4096 := by
  show StableHlo.after hostOps0 _ (Proc.devRef .tc main_v0) = _
  after_results
  rfl

theorem W1_v2 (c : Dev nD) : (W1 m ρ c (Proc.devRef .tc main_v2) : SAF.Idx → EReal)
    = Host.dotGeneral (F := Ideal) dot_S8192x4096_S4096x16_S8192x16_1_0_0_1_n_n none
        (shapeCast SXF (xarr m c) shapeCasts_S4x2048x4096_S8192x4096 : FVec Ideal SXF .f32)
        (transpose SLB [1, 0] (Aarr m c) transposes_S16x4096_S4096x16_1_0 : FVec Ideal SLB .f32) := by
  show StableHlo.after hostOps0 _ (Proc.devRef .tc main_v2) = _
  after_results
  rfl

/-! ## Buffers carried unchanged from the first stretch to the first kernel's exit -/

theorem W4_v0 (c : Dev nD) : W4 m ρ c (Proc.devRef .tc main_v0) = W1 m ρ c (Proc.devRef .tc main_v0) :=
  calc W4 m ρ c (Proc.devRef .tc main_v0)
    _ = W3 m ρ c (Proc.devRef .tc main_v0) := W4_of_ne m ρ c main_v0 (by decide)
    _ = W2 m ρ c (Proc.devRef .tc main_v0) := by unwritten hostOps0_2
    _ = W1 m ρ c (Proc.devRef .tc main_v0) := by unwritten hostOps0_1

theorem W4_v2 (c : Dev nD) : W4 m ρ c (Proc.devRef .tc main_v2) = W1 m ρ c (Proc.devRef .tc main_v2) :=
  calc W4 m ρ c (Proc.devRef .tc main_v2)
    _ = W3 m ρ c (Proc.devRef .tc main_v2) := W4_of_ne m ρ c main_v2 (by decide)
    _ = W2 m ρ c (Proc.devRef .tc main_v2) := by unwritten hostOps0_2
    _ = W1 m ρ c (Proc.devRef .tc main_v2) := by unwritten hostOps0_1

theorem W4_arg4 (c : Dev nD) : W4 m ρ c (Proc.devRef .tc main_arg4) = m ((c.tc : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c.tc : Thread nD τ).loc main_arg4) := rfl

/-! ## The second stretch: three changes of float format, each the identity on the ideal values -/

theorem V5_v13 (c : Dev nD) : (V5 m ρ c main_v13 : SXF.Idx → EReal) = (W4 m ρ c (Proc.devRef .tc main_v0) : SXF.Idx → EReal) := by
  show StableHlo.after hostOps1 _ (Proc.devRef .tc main_v13) = _
  after_results
  rfl

theorem V5_v14 (c : Dev nD) : (V5 m ρ c main_v14 : SAF.Idx → EReal) = (W4 m ρ c (Proc.devRef .tc main_v2) : SAF.Idx → EReal) := by
  show StableHlo.after hostOps1 _ (Proc.devRef .tc main_v14) = _
  after_results
  rfl

theorem V5_v15 (c : Dev nD) : (V5 m ρ c main_v15 : SLB.Idx → EReal) = (W4 m ρ c (Proc.devRef .tc main_arg4) : SLB.Idx → EReal) := by
  show StableHlo.after hostOps1 _ (Proc.devRef .tc main_v15) = _
  after_results
  rfl

/-! ## The seven readings -/

/-- Row `i` of the flattened x is x[i / 2048, i % 2048, ·]. -/
theorem X_eq (c : Dev nD) (i : Fin 8192) (d : Fin 4096) :
    (V5 m ρ c main_v13 : SXF.Idx → EReal) (ix2 i d)
      = xarr m c (ix3 ⟨i.val / 2048, by omega⟩ ⟨i.val % 2048, Nat.mod_lt _ (by decide)⟩ d) := by
  rw [V5_v13, W4_v0, W1_v0, flat_apply]

/-- The low-rank projection at (i, r): ∑_d x[i / 2048, i % 2048, d] · A[r, d]. -/
theorem A_eq (c : Dev nD) (i : Fin 8192) (r : Fin 16) :
    (V5 m ρ c main_v14 : SAF.Idx → EReal) (ix2 i r)
      = ∑ d : Fin 4096, xarr m c (ix3 ⟨i.val / 2048, by omega⟩ ⟨i.val % 2048, Nat.mod_lt _ (by decide)⟩ d) * Aarr m c (ix2 r d) := by
  rw [V5_v14, W4_v2, W1_v2, dot_apply]
  show (_ : EReal) = (_ : EReal)
  refine Finset.sum_congr rfl fun d _ => ?_
  rw [flat_apply, transpose_ix2_apply]

/-- B reaches the second kernel unchanged. -/
theorem B_eq (c : Dev nD) : (V5 m ρ c main_v15 : SLB.Idx → EReal) = Barr m c := by
  rw [V5_v15, W4_arg4]

/-- The second kernel's weight operand is what the first kernel's pipeline left in its output array. -/
theorem Wq_eq (c : Dev nD) : (V5 m ρ c main_v12 : SC.Idx → EReal) = (dat0 (F := Ideal) (V3 m ρ) c).arrAt 3 cfg0.N :=
  calc (V5 m ρ c main_v12 : SC.Idx → EReal)
    _ = W4 m ρ c (Proc.devRef .tc main_v12) := by unwritten hostOps1
    _ = (dat0 (F := Ideal) (V3 m ρ) c).arrAt 3 cfg0.N := W4_arr m ρ c 3

/-- The first kernel reads the codes and the scales as launched. -/
theorem codes_eq (c : Dev nD) : V3 m ρ c main_arg1 = m ((c.tc : Thread nD τ).loc main_arg1) :=
  calc W3 m ρ c (Proc.devRef .tc main_arg1)
    _ = W2 m ρ c (Proc.devRef .tc main_arg1) := by unwritten hostOps0_2
    _ = W1 m ρ c (Proc.devRef .tc main_arg1) := by unwritten hostOps0_1
    _ = W0 m ρ c (Proc.devRef .tc main_arg1) := by unwritten hostOps0
    _ = m ((c.tc : Thread nD τ).loc main_arg1) := rfl
theorem absmax_eq (c : Dev nD) : V3 m ρ c main_arg2 = m ((c.tc : Thread nD τ).loc main_arg2) :=
  calc W3 m ρ c (Proc.devRef .tc main_arg2)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0
    _ = m ((c.tc : Thread nD τ).loc main_arg2) := rfl

/-- The last stretch regroups the second kernel's output array, which holds what its pipeline left there. -/
theorem W7_v17 (c : Dev nD) : (W7 m ρ c (Proc.devRef .tc main_v17) : SX.Idx → EReal)
    = shapeCast SX ((dat1 (F := Ideal) (V5 m ρ) c).arrAt 4 cfg1.N : SXF.Idx → EReal) shapeCasts_S8192x4096_S4x2048x4096 := by
  rw [← W6_arr m ρ c 4]
  show StableHlo.after hostOps2 _ (Proc.devRef .tc main_v17) = _
  after_results
  rfl

/-- The result at (b, s, o) is the second kernel's output at (2048·b + s, o). -/
theorem out_eq (c : Dev nD) (b : Fin 4) (s : Fin 2048) (o : Fin 4096) :
    (W7 m ρ c (Proc.devRef .tc main_v17) : SX.Idx → EReal) (ix3 b s o)
      = ((dat1 (F := Ideal) (V5 m ρ) c).arrAt 4 cfg1.N : SXF.Idx → EReal) (ix2 ⟨2048 * b.val + s.val, by omega⟩ o) := by
  rw [W7_v17, unflat_apply]

end Cert.KernelIdeal.Host

end
-- ==== Proof.KHostE.lean ====
/-
  The expansion matrix the host builds for the first kernel: E[g, d] = 1 if g = d / 64 else 0, for g < 64, d < 4096.
  The host computes d / 64 as numpy's floor division of an iota by the constant 64 (a truncating signed division,
  corrected by one where the signs differ and the remainder is not zero — never, for 0 ≤ d < 4096 and 64 > 0),
  compares it with an iota over g, and converts the bit to f32.
-/
import proofs.«402265_j75067438400019_2_alg».proof.Proof.Spec
import proofs.«402265_j75067438400019_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Idealize.ShloMosaic.Lib.StableHlo.Run
import Idealize.ShloMosaic.Lib.StableHlo.Predicate

noncomputable section

namespace Cert.KernelIdeal.HostE

open Cert.KernelIdeal Cert.KernelIdeal.Gen Cert.QLora
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A column number below 4096, as a 32-bit word, has its own value. -/
theorem toNat_col (d : ℕ) (hd : d < 4096) : (BitVec.ofNat 32 d).toNat = d := by
  rw [BitVec.toNat_ofNat]; exact Nat.mod_eq_of_lt (by omega)

/-- … and is not negative. -/
theorem msb_col (d : ℕ) (hd : d < 4096) : (BitVec.ofNat 32 d).msb = false := by
  rw [BitVec.msb_eq_decide, toNat_col d hd]
  exact decide_eq_false (by omega)

/-- Division by 64 is at no corner of the signed division. -/
theorem not_corner64 (x : BitVec 32) : ¬ IntOp.SDivCorner x 64#32 := by
  unfold IntOp.SDivCorner
  rintro (h | ⟨_, h⟩) <;> exact absurd h (by decide)

/-- The truncating signed quotient of a column number by 64 is the natural quotient. -/
theorem divsi_col (d : ℕ) (hd : d < 4096) :
    IntOp.divsi .host (BitVec.ofNat 32 d) 64#32 = BitVec.ofNat 32 (d / 64) := by
  unfold IntOp.divsi
  rw [if_neg (not_corner64 _), BitVec.sdiv_eq, msb_col d hd, show (64#32).msb = false from by decide]
  apply BitVec.eq_of_toNat_eq
  show ((BitVec.ofNat 32 d) / 64#32).toNat = _
  rw [BitVec.toNat_udiv, toNat_col d hd, BitVec.toNat_ofNat]
  show d / 64 = (d / 64) % 2 ^ 32
  omega

/-- The signed remainder of a column number by 64 is the natural remainder. -/
theorem remsi_col (d : ℕ) (hd : d < 4096) :
    IntOp.remsi .host (BitVec.ofNat 32 d) 64#32 = BitVec.ofNat 32 (d % 64) := by
  unfold IntOp.remsi
  rw [if_neg (not_corner64 _), BitVec.srem_eq, msb_col d hd, show (64#32).msb = false from by decide]
  apply BitVec.eq_of_toNat_eq
  show ((BitVec.ofNat 32 d) % 64#32).toNat = _
  rw [BitVec.toNat_umod, toNat_col d hd, BitVec.toNat_ofNat]
  show d % 64 = (d % 64) % 2 ^ 32
  omega

/-- The sign of a word as a two's-complement integer: −1, 0 or 1. -/
def sgnWord (x : BitVec 32) : BitVec 32 := if x = 0 then 0 else if x.msb then -1 else 1

/-- The host's floor division on one pair of words: the truncating quotient, less one where the signs differ and the
    remainder is not zero. -/
def fdivWord (x k : BitVec 32) : BitVec 32 :=
  Scalar.select
    (IntOp.andi (IntOp.cmpi .ne (sgnWord x) (sgnWord k)) (IntOp.cmpi .ne (IntOp.remsi .host x k) 0#32))
    (IntOp.subi (IntOp.divsi .host x k) 1#32)
    (IntOp.divsi .host x k)

/-- On a column number below 4096 and the divisor 64 no correction is made: for column 0 the remainder is zero, and
    for every other column both signs are 1. So the floor division is the natural quotient. -/
theorem fdivWord_col (d : ℕ) (hd : d < 4096) : fdivWord (BitVec.ofNat 32 d) 64#32 = BitVec.ofNat 32 (d / 64) := by
  have hbit : IntOp.andi (IntOp.cmpi .ne (sgnWord (BitVec.ofNat 32 d)) (sgnWord 64#32))
      (IntOp.cmpi .ne (IntOp.remsi .host (BitVec.ofNat 32 d) 64#32) 0#32) = 0#1 := by
    rcases Nat.eq_zero_or_pos d with h0 | hpos
    · subst h0
      decide
    · have hne : BitVec.ofNat 32 d ≠ 0 := by
        intro h
        have := congrArg BitVec.toNat h
        rw [toNat_col d hd] at this
        change d = 0 at this
        omega
      have hs : sgnWord (BitVec.ofNat 32 d) = 1 := by
        unfold sgnWord
        rw [if_neg hne, msb_col d hd]
        rfl
      have hk : sgnWord 64#32 = 1 := by decide
      rw [hs, hk]
      show IntOp.andi (IntOp.cmpi .ne (1 : BitVec 32) 1) _ = 0#1
      have : IntOp.cmpi .ne (1 : BitVec 32) 1 = 0#1 := by decide
      rw [this]
      exact BitVec.zero_and
  unfold fdivWord
  rw [hbit, divsi_col d hd]
  rfl

/-- The row of column numbers 0 … 4095, as a [1 × 4096] row of 32-bit words. -/
def colRow : IVec S1x4096 32 := broadcastInDim S1x4096 ![1] bcast_S4096_S1x4096_1 (iotaInDim S4096 32 0)

/-- The divisor 64 laid along the row. -/
def kRow : IVec S1x4096 32 := broadcastInDim S1x4096 ![] bcast_S_S1x4096 (constantI S_ 32 64#32)

/-- The floor division of the column numbers by 64, as the host computes it: the truncating quotient, less one where
    the operands' signs differ and the remainder is not zero. -/
def Qrow : IVec S1x4096 32 :=
  select
    (andi
      (cmpi .ne (signi colRow) (broadcastInDim S1x4096 ![] bcast_S_S1x4096 (signi (constantI S_ 32 64#32))))
      (cmpi .ne (Host.remsi colRow kRow) (broadcastInDim S1x4096 ![] bcast_S_S1x4096 (constantI S_ 32 0#32))))
    (subi (Host.divsi colRow kRow) (broadcastInDim S1x4096 ![] bcast_S_S1x4096 (constantI S_ 32 1#32)))
    (Host.divsi colRow kRow)

/-- The expansion matrix as the host builds it: the bit "row number = floor quotient of the column number", as f32. -/
def Emat : S64x4096.Idx → EReal :=
  uitofp (F := Ideal) .f32
    (cmpi .eq
      (broadcastInDim S64x4096 ![0, 1] bcast_S64x1_S64x4096_0_1 (broadcastInDim S64x1 ![0] bcast_S64_S64x1_0 (iotaInDim S64 32 0)))
      (broadcastInDim S64x4096 ![0, 1] bcast_S1x4096_S64x4096_0_1 Qrow))

/-- The row of column numbers holds, at column d, the word of d. -/
theorem colRow_apply (d : Fin 4096) : colRow (ix2 (0 : Fin 1) d) = BitVec.ofNat 32 d.val := by
  unfold colRow
  refine (broadcastInDim_apply ![1] bcast_S4096_S1x4096_1 (iotaInDim S4096 32 0) (ix2 (0 : Fin 1) d) (ix1 d) ?_).trans rfl
  intro a
  match a with
  | ⟨0, _⟩ =>
    show d.val = if (4096 : ℕ) = 1 then 0 else d.val
    rw [if_neg (by decide)]

/-- The host's row of floor quotients is, column by column, the floor division of that column's number by 64. -/
theorem Qrow_eq (j : S1x4096.Idx) : Qrow j = fdivWord (colRow j) 64#32 := rfl

/-- … so at column d it holds the word of d / 64. -/
theorem Qrow_apply (d : Fin 4096) : Qrow (ix2 (0 : Fin 1) d) = BitVec.ofNat 32 (d.val / 64) := by
  rw [Qrow_eq, colRow_apply, fdivWord_col d.val d.isLt]

/-- The column of row numbers, laid across the rectangle, holds at (g, d) the word of g. -/
theorem rowMat_apply (g : Fin 64) (d : Fin 4096) :
    broadcastInDim S64x4096 ![0, 1] bcast_S64x1_S64x4096_0_1
      (broadcastInDim S64x1 ![0] bcast_S64_S64x1_0 (iotaInDim S64 32 0)) (ix2 g d) = BitVec.ofNat 32 g.val := by
  refine (broadcastInDim_apply ![0, 1] bcast_S64x1_S64x4096_0_1 _ (ix2 g d) (ix2 g (0 : Fin 1)) ?_).trans ?_
  · intro a
    match a with
    | ⟨0, _⟩ =>
      show g.val = if (64 : ℕ) = 1 then 0 else g.val
      rw [if_neg (by decide)]
    | ⟨1, _⟩ =>
      show (0 : ℕ) = if (1 : ℕ) = 1 then 0 else d.val
      rw [if_pos rfl]
  · refine (broadcastInDim_apply ![0] bcast_S64_S64x1_0 (iotaInDim S64 32 0) (ix2 g (0 : Fin 1)) (ix1 g) ?_).trans rfl
    intro a
    match a with
    | ⟨0, _⟩ =>
      show g.val = if (64 : ℕ) = 1 then 0 else g.val
      rw [if_neg (by decide)]

/-- A [1 × 4096] row laid down the rectangle holds, at (g, d), the row's entry at column d. -/
theorem rowDown_apply (y : IVec S1x4096 32) (g : Fin 64) (d : Fin 4096) :
    broadcastInDim S64x4096 ![0, 1] bcast_S1x4096_S64x4096_0_1 y (ix2 g d) = y (ix2 (0 : Fin 1) d) := by
  refine broadcastInDim_apply ![0, 1] bcast_S1x4096_S64x4096_0_1 y (ix2 g d) (ix2 (0 : Fin 1) d) ?_
  intro a
  match a with
  | ⟨0, _⟩ =>
    show (0 : ℕ) = if (1 : ℕ) = 1 then 0 else g.val
    rw [if_pos rfl]
  | ⟨1, _⟩ =>
    show d.val = if (4096 : ℕ) = 1 then 0 else d.val
    rw [if_neg (by decide)]

/-- The row of floor quotients, laid down the rectangle, holds at (g, d) the word of d / 64. -/
theorem quoMat_apply (g : Fin 64) (d : Fin 4096) :
    broadcastInDim S64x4096 ![0, 1] bcast_S1x4096_S64x4096_0_1 Qrow (ix2 g d) = BitVec.ofNat 32 (d.val / 64) :=
  (rowDown_apply Qrow g d).trans (Qrow_apply d)

/-- Two numbers below 64 are equal as 32-bit words exactly when they are equal. -/
theorem ofNat_eq_iff_small (a b : ℕ) (ha : a < 64) (hb : b < 64) : BitVec.ofNat 32 a = BitVec.ofNat 32 b ↔ a = b := by
  constructor
  · intro h
    have := congrArg BitVec.toNat h
    rw [BitVec.toNat_ofNat, BitVec.toNat_ofNat] at this
    change a % 2 ^ 32 = b % 2 ^ 32 at this
    omega
  · intro h; rw [h]

/-- The expansion matrix at (g, d): 1 if g = d / 64, else 0. -/
theorem Emat_apply (g : Fin 64) (d : Fin 4096) : Emat (ix2 g d) = if g.val = d.val / 64 then (1 : EReal) else 0 := by
  show (((IntOp.cmpi .eq
      (broadcastInDim S64x4096 ![0, 1] bcast_S64x1_S64x4096_0_1
        (broadcastInDim S64x1 ![0] bcast_S64_S64x1_0 (iotaInDim S64 32 0)) (ix2 g d))
      (broadcastInDim S64x4096 ![0, 1] bcast_S1x4096_S64x4096_0_1 Qrow (ix2 g d))).toNat : ℝ) : EReal) = _
  rw [rowMat_apply, quoMat_apply]
  have hq : d.val / 64 < 64 := by have := d.isLt; omega
  by_cases h : g.val = d.val / 64
  · rw [if_pos h, (StableHlo.Predicate.cmpi_eq_iff).mpr ((ofNat_eq_iff_small _ _ g.isLt hq).mpr h)]
    show (((1 : ℕ) : ℝ) : EReal) = 1
    simp
  · rw [if_neg h]
    have hne : BitVec.ofNat 32 g.val ≠ BitVec.ofNat 32 (d.val / 64) := fun e => h ((ofNat_eq_iff_small _ _ g.isLt hq).mp e)
    have h0 : IntOp.cmpi .eq (BitVec.ofNat 32 g.val) (BitVec.ofNat 32 (d.val / 64)) = 0#1 := by
      unfold IntOp.cmpi
      show BitVec.ofBool (BitVec.ofNat 32 g.val == BitVec.ofNat 32 (d.val / 64)) = 0#1
      rw [beq_eq_false_iff_ne.mpr hne]
      rfl
    rw [h0]
    show (((0 : ℕ) : ℝ) : EReal) = 0
    simp

/-- At region 0's entry the buffer the last host stretch writes holds the expansion matrix as composed above: the
    three stretches of host operations, read back operation by operation from the buffer to the iotas and constants. -/
theorem V3_E (c : Dev nD) : (V3 m ρ c main_v11 : S64x4096.Idx → EReal) = Emat := by
  show StableHlo.after hostOps0_2 _ (Proc.devRef .tc main_v11) = _
  after_results
  rfl

theorem E_eq (c : Dev nD) (g : Fin 64) (d : Fin 4096) :
    V3 m ρ c main_v11 (ix2 g d) = if g.val = d.val / 64 then (1 : EReal) else 0 :=
  (congrFun (V3_E m ρ c) (ix2 g d)).trans (Emat_apply g d)

end Cert.KernelIdeal.HostE

end
-- ==== Proof.KValue.lean ====
/-
  The kernel program's result as a value. Its two passes compose: pass 1 leaves the dequantised weight
  `W[o, d] = word(code[o, d]) · absmax[o, d / 64]` (the scale picked out of the group axis by the one-hot expansion
  matrix), pass 2 contracts the flattened x against it in eight blocks of 512 columns — regrouped, the plain sum over
  all 4096 — and adds the doubled low-rank term `(x · Aᵀ) · Bᵀ`; row `2048·b + s` of the flattened arrays is (b, s).
  So the result buffer ends at the specification `G` of the five arguments.
-/
import proofs.«402265_j75067438400019_2_alg».proof.Proof.Spec
import proofs.«402265_j75067438400019_2_alg».proof.Proof.KRun
import proofs.«402265_j75067438400019_2_alg».proof.Proof.KReg0
import proofs.«402265_j75067438400019_2_alg».proof.Proof.KReg1
import proofs.«402265_j75067438400019_2_alg».proof.Proof.KHostA
import proofs.«402265_j75067438400019_2_alg».proof.Proof.KHostE

noncomputable section

namespace Cert.KernelIdeal.Value

open Cert.KernelIdeal Cert.KernelIdeal.Gen Cert.QLora
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The launch contents of the arguments, at their literal types. -/
abbrev xarr (c : Dev nD) : SX.Idx → EReal := m ((c.tc : Thread nD τ).loc main_arg0)
abbrev carr (c : Dev nD) : SC.Idx → BitVec 32 := m ((c.tc : Thread nD τ).loc main_arg1)
abbrev sarr (c : Dev nD) : SM.Idx → EReal := m ((c.tc : Thread nD τ).loc main_arg2)
abbrev Aarr (c : Dev nD) : SLA.Idx → EReal := m ((c.tc : Thread nD τ).loc main_arg3)
abbrev Barr (c : Dev nD) : SLB.Idx → EReal := m ((c.tc : Thread nD τ).loc main_arg4)

/-- Pass 1's output, as pass 2 finds it, is the dequantised weight. -/
theorem weight_eq (c : Dev nD) (o d : Fin 4096) :
    (V5 m ρ c main_v12 : SC.Idx → EReal) (ix2 o d) = W (carr m c) (sarr m c) o d := by
  rw [Host.Wq_eq m ρ c, Reg0.final0 (V3 m ρ) c]
  show R0at (V3 m ρ c main_arg1) (V3 m ρ c main_arg2) (V3 m ρ c main_v11) o d = _
  rw [R0at_onehot _ _ _ (fun g d => HostE.E_eq m ρ c g d) o d, Host.codes_eq m ρ c, Host.absmax_eq m ρ c]

/-- Row `2048·b + s` of the flattened arrays is (b, s). -/
theorem row_split (b : Fin 4) (s : Fin 2048) (h1 : (2048 * b.val + s.val) / 2048 < 4) (h2 : (2048 * b.val + s.val) % 2048 < 2048) :
    (⟨(2048 * b.val + s.val) / 2048, h1⟩ : Fin 4) = b ∧ (⟨(2048 * b.val + s.val) % 2048, h2⟩ : Fin 2048) = s :=
  ⟨Fin.ext (by show (2048 * b.val + s.val) / 2048 = b.val; omega), Fin.ext (by show (2048 * b.val + s.val) % 2048 = s.val; omega)⟩

/-- Pass 2 over arrays that ARE the flattened x, the dequantised weight, the low-rank projection and B computes the
    specification: the eight-block accumulation is the whole contraction, and row `2048·b + s` is (b, s). -/
theorem compose (X : SXF.Idx → EReal) (Wq : SC.Idx → EReal) (A' : SAF.Idx → EReal) (B' : SLB.Idx → EReal)
    (x : SX.Idx → EReal) (codes : SC.Idx → BitVec 32) (absmax : SM.Idx → EReal) (A : SLA.Idx → EReal) (B : SLB.Idx → EReal)
    (hX : ∀ (i : Fin 8192) (d : Fin 4096), X (ix2 i d) = x (ix3 ⟨i.val / 2048, by omega⟩ ⟨i.val % 2048, Nat.mod_lt _ (by decide)⟩ d))
    (hW : ∀ o d : Fin 4096, Wq (ix2 o d) = W codes absmax o d)
    (hA : ∀ (i : Fin 8192) (r : Fin 16), A' (ix2 i r)
      = ∑ d : Fin 4096, x (ix3 ⟨i.val / 2048, by omega⟩ ⟨i.val % 2048, Nat.mod_lt _ (by decide)⟩ d) * A (ix2 r d))
    (hB : B' = B) (b : Fin 4) (s : Fin 2048) (o : Fin 4096) :
    R1 X Wq A' B' (ix2 ⟨2048 * b.val + s.val, by omega⟩ o) = G x codes absmax A B (ix3 b s o) := by
  show R1at X Wq A' B' ⟨2048 * b.val + s.val, by omega⟩ o = Gat x codes absmax A B b s o
  unfold R1at Gat
  rw [accK_part]
  have hb := row_split b s (by omega) (Nat.mod_lt _ (by decide))
  subst hB
  congr 1
  · refine Finset.sum_congr rfl fun d _ => ?_
    rw [hX _ d, hW o d, hb.1, hb.2]
  · congr 1
    refine Finset.sum_congr rfl fun r _ => ?_
    rw [hA _ r, hb.1, hb.2]

/-- The result buffer's last contents are the specification of the arguments. -/
theorem value (c : Dev nD) :
    (W7 m ρ c (Proc.devRef .tc main_v17) : SX.Idx → EReal) = G (xarr m c) (carr m c) (sarr m c) (Aarr m c) (Barr m c) := by
  funext i
  obtain ⟨b, s, o, rfl⟩ : ∃ (b : Fin 4) (s : Fin 2048) (o : Fin 4096), i = ix3 b s o := ⟨i 0, i 1, i 2, eq_ix3 i⟩
  refine (Host.out_eq m ρ c b s o).trans ?_
  refine (congrFun (Reg1.final1 (V5 m ρ) c) _).trans ?_
  exact compose _ _ _ _ (xarr m c) (carr m c) (sarr m c) (Aarr m c) (Barr m c)
    (fun i d => Host.X_eq m ρ c i d) (fun o d => weight_eq m ρ c o d) (fun i r => Host.A_eq m ρ c i r) (Host.B_eq m ρ c) b s o

/-- The run, read: the result buffer at the specification, the arguments as launched. -/
theorem run : θ_run defs (onTc (τ := τ) (main (F := Ideal))) ⟨m, fun _ => 0, ρ⟩ (fun r => ∀ c : Dev nD,
      r.2.mem ((c.tc : Thread nD τ).loc main_v17) = G (xarr m c) (carr m c) (sarr m c) (Aarr m c) (Barr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (value m ρ c), (h c).2⟩) (Cert.KernelIdeal.GenV.run_value (F := Ideal) m ρ)

end Cert.KernelIdeal.Value

end
-- ==== Proof.RefTerm.lean ====
/-
  The reference's @main as one pure term of its five argument arrays: the table read at the (wrapped) codes,
  regrouped 4096 → 64 × 64, scaled group by group, regrouped back, contracted with x; the low-rank term x·Aᵀ·Bᵀ
  doubled; the two added.
-/
import proofs.«402265_j75067438400019_2_alg».proof.Proof.Gen.ReferenceIdeal

noncomputable section

namespace Cert.ReferenceIdeal.RefValue

open Cert.ReferenceIdeal Cert.ReferenceIdeal.Gen Idealize.ShloMosaic Idealize.SL.Sem

variable {F : FTy → Type} [FloatOps F]

/-- The sixteen-word table as the constant holds it. -/
def table : (⟨S16, .f32⟩ : BufTy).Contents (Elt F) := fun i => FloatOps.ofBits .f32 (lit0 (S16.rowMajor i))

/-- The codes with a negative one wrapped by 16 (numpy's indexing rule), as start indices of the gather. -/
def wrapped (codes : (⟨S4096x4096, .i32⟩ : BufTy).Contents (Elt F)) : (⟨S4096x4096x1, .i32⟩ : BufTy).Contents (Elt F) :=
  broadcastInDim S4096x4096x1 ![0, 1] bcast_S4096x4096_S4096x4096x1_0_1
    (select (cmpi .slt codes (broadcastInDim S4096x4096 ![] bcast_S_S4096x4096 (constantI S_ 32 0#32)))
      (addi codes (broadcastInDim S4096x4096 ![] bcast_S_S4096x4096 (constantI S_ 32 16#32))) codes)

/-- The dequantised weight: table words gathered at the codes, times each group's scale. -/
def weight (codes : (⟨S4096x4096, .i32⟩ : BufTy).Contents (Elt F)) (absmax : (⟨S4096x64, .f32⟩ : BufTy).Contents (Elt F)) :
    (⟨S4096x4096, .f32⟩ : BufTy).Contents (Elt F) :=
  shapeCast S4096x4096
    (mulf (shapeCast S4096x64x64 (Host.gather gather_S16_S4096x4096x1_S4096x4096_n_0_n_n_0_2_1 (table (F := F)) (wrapped (F := F) codes)) shapeCasts_S4096x4096_S4096x64x64)
      (broadcastInDim S4096x64x64 ![0, 1, 2] bcast_S4096x64x1_S4096x64x64_0_1_2
        (broadcastInDim S4096x64x1 ![0, 1] bcast_S4096x64_S4096x64x1_0_1 absmax)))
    shapeCasts_S4096x64x64_S4096x4096

/-- The reference's result as one term of the arguments. -/
def refTerm (x : (⟨S4x2048x4096, .f32⟩ : BufTy).Contents (Elt F)) (codes : (⟨S4096x4096, .i32⟩ : BufTy).Contents (Elt F))
    (absmax : (⟨S4096x64, .f32⟩ : BufTy).Contents (Elt F)) (A : (⟨S16x4096, .f32⟩ : BufTy).Contents (Elt F))
    (B : (⟨S4096x16, .f32⟩ : BufTy).Contents (Elt F)) : (⟨S4x2048x4096, .f32⟩ : BufTy).Contents (Elt F) :=
  addf (Host.dotGeneral dot_S4x2048x4096_S4096x4096_S4x2048x4096_2_1_01_0_n_n none x (weight (F := F) codes absmax))
    (mulf (Host.dotGeneral dot_S4x2048x16_S4096x16_S4x2048x4096_2_1_01_0_n_n none
        (Host.dotGeneral dot_S4x2048x4096_S16x4096_S4x2048x16_2_1_01_0_n_n none x A) B)
      (broadcastInDim S4x2048x4096 ![] bcast_S_S4x2048x4096 (constant S_ .f32 0x40000000#32)))

end Cert.ReferenceIdeal.RefValue

end
-- ==== Proof.RefRun.lean ====
/-
  The reference's run, read back: its @main is a straight line of 22 host operations, so every weakly fair execution
  ends with the result buffer at the operations' composed term of the arguments (`RefValue.refTerm`) and the arguments
  as launched.
-/
import proofs.«402265_j75067438400019_2_alg».proof.Proof.RefTerm
import Idealize.ShloMosaic.Lib.StableHlo.Run

noncomputable section

namespace Cert.ReferenceIdeal.Value

open Cert.ReferenceIdeal Cert.ReferenceIdeal.Gen Cert.ReferenceIdeal.RefValue Idealize.ShloMosaic Idealize.ShloMosaic.TcCoe Idealize.SL.Sem Idealize.ShloMosaic.StableHlo

variable {F : FTy → Type} [FloatOps F]

/-- @main's 22 operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S4096x4096 ![] bcast_S_S4096x4096 : (⟨S_, .i32⟩ : BufTy).Contents (Elt F) → (⟨S4096x4096, .i32⟩ : BufTy).Contents (Elt F)),
    binary main_arg1 main_v0 main_v1 (cmpi .slt : (⟨S4096x4096, .i32⟩ : BufTy).Contents (Elt F) → (⟨S4096x4096, .i32⟩ : BufTy).Contents (Elt F) → (⟨S4096x4096, .i1⟩ : BufTy).Contents (Elt F)),
    nullary main_c_0 (constantI S_ 32 16#32),
    unary main_c_0 main_v2 (broadcastInDim S4096x4096 ![] bcast_S_S4096x4096 : (⟨S_, .i32⟩ : BufTy).Contents (Elt F) → (⟨S4096x4096, .i32⟩ : BufTy).Contents (Elt F)),
    binary main_arg1 main_v2 main_v3 (addi : (⟨S4096x4096, .i32⟩ : BufTy).Contents (Elt F) → (⟨S4096x4096, .i32⟩ : BufTy).Contents (Elt F) → (⟨S4096x4096, .i32⟩ : BufTy).Contents (Elt F)),
    ternary main_v1 main_v3 main_arg1 main_v4 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v4 main_v5 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_cst main_v5 main_v6 ((fun x i => Host.gather gather_S16_S4096x4096x1_S4096x4096_n_0_n_n_0_2_1 x i) : (⟨S16, .f32⟩ : BufTy).Contents (Elt F) → (⟨S4096x4096x1, .i32⟩ : BufTy).Contents (Elt F) → (⟨S4096x4096, .f32⟩ : BufTy).Contents (Elt F)),
    reshape main_v6 main_v7 rfl shapeCasts_S4096x4096_S4096x64x64,
    unary main_arg2 main_v8 (broadcastInDim S4096x64x1 ![0, 1] bcast_S4096x64_S4096x64x1_0_1 : (⟨S4096x64, .f32⟩ : BufTy).Contents (Elt F) → (⟨S4096x64x1, .f32⟩ : BufTy).Contents (Elt F)),
    unary main_v8 main_v9 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    binary main_v7 main_v9 main_v10 (mulf : (⟨S4096x64x64, .f32⟩ : BufTy).Contents (Elt F) → (⟨S4096x64x64, .f32⟩ : BufTy).Contents (Elt F) → (⟨S4096x64x64, .f32⟩ : BufTy).Contents (Elt F)),
    reshape main_v10 main_v11 rfl shapeCasts_S4096x64x64_S4096x4096,
    binary main_arg0 main_v11 main_v12 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    binary main_arg0 main_arg3 main_v13 ((fun l r => Host.dotGeneral dot_S4x2048x4096_S16x4096_S4x2048x16_2_1_01_0_n_n none l r) : (⟨S4x2048x4096, .f32⟩ : BufTy).Contents (Elt F) → (⟨S16x4096, .f32⟩ : BufTy).Contents (Elt F) → (⟨S4x2048x16, .f32⟩ : BufTy).Contents (Elt F)),
    binary main_v13 main_arg4 main_v14 ((fun l r => Host.dotGeneral dot_S4x2048x16_S4096x16_S4x2048x4096_2_1_01_0_n_n none l r) : (⟨S4x2048x16, .f32⟩ : BufTy).Contents (Elt F) → (⟨S4096x16, .f32⟩ : BufTy).Contents (Elt F) → (⟨S4x2048x4096, .f32⟩ : BufTy).Contents (Elt F)),
    nullary main_cst_1 (constant S_ .f32 0x40000000#32),
    unary main_cst_1 main_v15 (broadcastInDim S4x2048x4096 ![] bcast_S_S4x2048x4096 : (⟨S_, .f32⟩ : BufTy).Contents (Elt F) → (⟨S4x2048x4096, .f32⟩ : BufTy).Contents (Elt F)),
    binary main_v14 main_v15 main_v16 (mulf : (⟨S4x2048x4096, .f32⟩ : BufTy).Contents (Elt F) → (⟨S4x2048x4096, .f32⟩ : BufTy).Contents (Elt F) → (⟨S4x2048x4096, .f32⟩ : BufTy).Contents (Elt F)),
    binary main_v12 main_v16 main_v17 (addf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., unary_bufs_sub ..,
    unary_bufs_sub .., binary_bufs_sub .., reshape_bufs_sub .., binary_bufs_sub .., binary_bufs_sub .., binary_bufs_sub ..,
    nullary_bufs_sub .., unary_bufs_sub .., binary_bufs_sub .., binary_bufs_sub ..⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = refTerm (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v17).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.Value

end
-- ==== Proof.RefValue.lean ====
/-
  The reference's term is the specification `G`, index by index, on codes in 0 … 15: there no code is wrapped, the
  gather's clamp does nothing, the table entry is the cascade's value, the two regroupings 4096 ↔ 64 × 64 cancel
  (column d sits in group d / 64 at offset d % 64), and each `dot_general` is a plain sum over its one contracted axis.
-/
import proofs.«402265_j75067438400019_2_alg».proof.Proof.RefTerm
import proofs.«402265_j75067438400019_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.QLora Idealize.ShloMosaic Idealize.ShloMosaic.ValueIdx Idealize.SL.Sem

/-- A product of a [p, q, k] array with a [n, k] array contracting the last axis of each, read at (i, j, l), is the sum
    over the contracted coordinate of the products of the entries. -/
theorem dot3_apply {p q k n : Nat} {φ₁ φ₂ : FTy}
    (w : DotDims.WF ⟨3, ![p, q, k]⟩ ⟨2, ![n, k]⟩ ⟨3, ![p, q, n]⟩ [2] [1] [0, 1] [0] [] [])
    (prec : Option ContractPrecision) (A : FVec Ideal ⟨3, ![p, q, k]⟩ φ₁) (B : FVec Ideal ⟨2, ![n, k]⟩ φ₂)
    (i : Fin p) (j : Fin q) (l : Fin n) :
    Host.dotGeneral (⟨[2], [1], [0, 1], [0], [], [], w⟩ : DotDims _ _ _) prec A B (ix3 i j l)
      = ∑ c : Fin k, A (ix3 i j c) * B (ix2 l c) := by
  show FloatOps.dotGeneral _ prec _ A B (ix3 i j l) = _
  rw [Ideal.dotGeneral_apply,
    ← Equiv.sum_comp (contrEquiv1 (⟨[2], [1], [0, 1], [0], [], [], w⟩ : DotDims _ _ _) k rfl rfl).symm]
  refine Finset.sum_congr rfl fun c _ => ?_
  have hc := contrEquiv1_symm_val
    (⟨[2], [1], [0, 1], [0], [], [], w⟩ : DotDims ⟨3, ![p, q, k]⟩ ⟨2, ![n, k]⟩ ⟨3, ![p, q, n]⟩) k rfl rfl c
  have hl : (⟨[2], [1], [0, 1], [0], [], [], w⟩ : DotDims ⟨3, ![p, q, k]⟩ ⟨2, ![n, k]⟩ ⟨3, ![p, q, n]⟩).lhsIdx (ix3 i j l)
      ((contrEquiv1 _ k rfl rfl).symm c) = ix3 i j c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [1], [0, 1], [0], [], [], w⟩ : DotDims ⟨3, ![p, q, k]⟩ ⟨2, ![n, k]⟩ ⟨3, ![p, q, n]⟩).rhsIdx (ix3 i j l)
      ((contrEquiv1 _ k rfl rfl).symm c) = ix2 l c := by
    funext ax; apply Fin.ext
    match ax with
    | ⟨0, _⟩ => simp [DotDims.rhsIdx]; rfl
    | ⟨1, _⟩ => simp [DotDims.rhsIdx]; exact hc
  rw [hl, hr]

/-- On a code that is not negative the wrap does nothing: the start index at (o, d, 0) is the code at (o, d). -/
theorem wrapped_apply (codes : IVec S4096x4096 32) (o d : Fin 4096) (h0 : 0 ≤ (codes (ix2 o d)).toInt) :
    wrapped (F := Ideal) codes (takeIdx (ix2 o d)) = codes (ix2 o d) := by
  unfold wrapped
  rw [broadcastInDim_apply _ _ _ (takeIdx (ix2 o d)) (ix2 o d) (fun a => by
    match a with
    | ⟨0, _⟩ => rfl
    | ⟨1, _⟩ => rfl)]
  rw [select_apply]
  have hlt : cmpi .slt codes (broadcastInDim S4096x4096 ![] bcast_S_S4096x4096 (constantI S_ 32 0#32)) (ix2 o d) = 0#1 := by
    show IntOp.cmpi .slt (codes (ix2 o d)) 0#32 = 0#1
    unfold IntOp.cmpi
    have : (codes (ix2 o d)).slt 0#32 = false := by
      rw [BitVec.slt]
      simp only [decide_eq_false_iff_not, not_lt]
      exact h0
    simp only [this]
    rfl
  rw [hlt, select_zero]

/-- The table at entry k is the k-th word. -/
theorem table_apply (k : Fin 16) : table (F := Ideal) (ix1 k) = Ideal.ofBits .f32 (Cert.QLora.lit k) := by
  unfold table
  have hk : S16.rowMajor (ix1 k) = k := Fin.ext (by rw [Shape.rowMajor_val_one])
  rw [hk]
  rfl

/-- The gathered table word at (o, d), for a code in 0 … 15, is the cascade's value at that code. -/
theorem gather_apply (codes : IVec S4096x4096 32) (o d : Fin 4096)
    (h0 : 0 ≤ (codes (ix2 o d)).toInt) (h1 : (codes (ix2 o d)).toInt < 16) :
    Host.gather gather_S16_S4096x4096x1_S4096x4096_n_0_n_n_0_2_1 (table (F := Ideal)) (wrapped (F := Ideal) codes) (ix2 o d)
      = casc (codes (ix2 o d)) := by
  have hg : gather_S16_S4096x4096x1_S4096x4096_n_0_n_n_0_2_1
      = takeDims 16 4096 4096 gather_S16_S4096x4096x1_S4096x4096_n_0_n_n_0_2_1_wf := rfl
  rw [hg, gather_take_apply (by decide), table_apply]
  refine (casc_of_range _ h0 h1 _ ?_).symm
  show min (wrapped (F := Ideal) codes (takeIdx (ix2 o d))).toInt.toNat (16 - 1) = (codes (ix2 o d)).toInt.toNat
  rw [wrapped_apply codes o d h0]
  omega

/-- The reference's weight at (o, d) is the specification's. -/
theorem weight_apply (codes : IVec S4096x4096 32) (absmax : FVec Ideal S4096x64 .f32)
    (hc : ∀ j : S4096x4096.Idx, 0 ≤ (codes j).toInt ∧ (codes j).toInt < 16) (o d : Fin 4096) :
    weight (F := Ideal) codes absmax (ix2 o d) = W codes absmax o d := by
  unfold weight W
  have hd := d.isLt
  rw [shapeCast_apply _ _ (ix2 o d) (ix3 o (⟨d.val / 64, by omega⟩ : Fin 64) (⟨d.val % 64, by omega⟩ : Fin 64)) (by
    rw [Shape.rowMajor_val_three, Shape.rowMajor_val_two]
    show (o.val * 64 + d.val / 64) * 64 + d.val % 64 = o.val * 4096 + d.val
    omega)]
  rw [mulf_apply]
  rw [shapeCast_apply _ _ (ix3 o (⟨d.val / 64, by omega⟩ : Fin 64) (⟨d.val % 64, by omega⟩ : Fin 64)) (ix2 o d) (by
    rw [Shape.rowMajor_val_three, Shape.rowMajor_val_two]
    show o.val * 4096 + d.val = (o.val * 64 + d.val / 64) * 64 + d.val % 64
    omega)]
  rw [gather_apply codes o d (hc _).1 (hc _).2]
  rw [broadcastInDim_apply _ _ _ (ix3 o (⟨d.val / 64, by omega⟩ : Fin 64) (⟨d.val % 64, by omega⟩ : Fin 64))
    (ix3 o (⟨d.val / 64, by omega⟩ : Fin 64) (0 : Fin 1)) (fun a => by
    match a with
    | ⟨0, _⟩ => rfl
    | ⟨1, _⟩ => rfl
    | ⟨2, _⟩ => rfl)]
  rw [broadcastInDim_apply _ _ _ (ix3 o (⟨d.val / 64, by omega⟩ : Fin 64) (0 : Fin 1))
    (ix2 o (⟨d.val / 64, by omega⟩ : Fin 64)) (fun a => by
    match a with
    | ⟨0, _⟩ => rfl
    | ⟨1, _⟩ => rfl)]

theorem refTerm_eq_G (x : FVec Ideal S4x2048x4096 .f32) (codes : IVec S4096x4096 32) (absmax : FVec Ideal S4096x64 .f32)
    (A : FVec Ideal S16x4096 .f32) (B : FVec Ideal S4096x16 .f32)
    (hc : ∀ j : S4096x4096.Idx, 0 ≤ (codes j).toInt ∧ (codes j).toInt < 16) :
    refTerm (F := Ideal) x codes absmax A B = G x codes absmax A B := by
  funext i
  obtain ⟨b, s, o, rfl⟩ : ∃ (b : Fin 4) (s : Fin 2048) (o : Fin 4096), i = ix3 b s o := ⟨i 0, i 1, i 2, eq_ix3 i⟩
  show refTerm (F := Ideal) x codes absmax A B (ix3 b s o) = Gat x codes absmax A B b s o
  unfold refTerm Gat
  have e1 : dot_S4x2048x4096_S4096x4096_S4x2048x4096_2_1_01_0_n_n
      = ⟨[2], [1], [0, 1], [0], [], [], dot_S4x2048x4096_S4096x4096_S4x2048x4096_2_1_01_0_n_n_wf⟩ := rfl
  have e2 : dot_S4x2048x4096_S16x4096_S4x2048x16_2_1_01_0_n_n
      = ⟨[2], [1], [0, 1], [0], [], [], dot_S4x2048x4096_S16x4096_S4x2048x16_2_1_01_0_n_n_wf⟩ := rfl
  have e3 : dot_S4x2048x16_S4096x16_S4x2048x4096_2_1_01_0_n_n
      = ⟨[2], [1], [0, 1], [0], [], [], dot_S4x2048x16_S4096x16_S4x2048x4096_2_1_01_0_n_n_wf⟩ := rfl
  rw [addf_apply, mulf_apply, e1, e2, e3, dot3_apply, dot3_apply]
  have htwo : broadcastInDim S4x2048x4096 ![] bcast_S_S4x2048x4096 (constant (F := Ideal) S_ .f32 0x40000000#32) (ix3 b s o) = two := rfl
  rw [htwo]
  congr 1
  · refine Finset.sum_congr rfl fun d _ => ?_
    rw [weight_apply codes absmax hc o d]
  · congr 1
    refine Finset.sum_congr rfl fun r _ => ?_
    rw [dot3_apply]

end Cert.ReferenceIdeal.RefValue

end
-- ==== Proof.PreDecode.lean ====
/-
  What the precondition says of the integer input: every code is one of 0 … 15 (read as a signed 32-bit integer).
  The precondition is a conjunction of five `all`-reductions; its last conjunct is the reduction, over all 4096 × 4096
  entries, of (0 ≤ code) ∧ (code < 16).
-/
import proofs.«402265_j75067438400019_2_alg».proof.Proof.Gen.Pre_finite_inputs
import Idealize.ShloMosaic.Lib.ReduceAll
import Idealize.ShloMosaic.Lib.StableHlo.Predicate
import Idealize.ShloMosaic.PureOps.Ideal

noncomputable section

namespace Cert.PreDecode

open Cert.Pre_finite_inputs Cert.Pre_finite_inputs.Gen Idealize.ShloMosaic Idealize.SL.Sem

theorem codes_in_range {F : FTy → Type} [FloatOps F] (x : FVec F S4x2048x4096 .f32) (codes : IVec S4096x4096 32) (absmax : FVec F S4096x64 .f32)
    (A : FVec F S16x4096 .f32) (B : FVec F S4096x16 .f32)
    (h : Cert.Pre_finite_inputs.fn (F := F) x codes absmax A B = (fun _ => 1#1)) :
    ∀ j : S4096x4096.Idx, 0 ≤ (codes j).toInt ∧ (codes j).toInt < 16 := by
  intro j
  have h0 := congrFun h (fun a => a.elim0)
  dsimp only [fn, fn_part1] at h0
  obtain ⟨-, h24⟩ := IntOp.andi_eq_one.1 h0
  haveI : Subsingleton S_.Idx := ⟨fun a b => funext fun d => d.elim0⟩
  have hj := Host.reduce_andi_all _ _ _ _ _ h24 j
  obtain ⟨hge, hlt⟩ := IntOp.andi_eq_one.1 hj
  have hge' : IntOp.cmpi .sge (codes j) 0#32 = 1#1 := hge
  have hlt' : IntOp.cmpi .slt (codes j) 16#32 = 1#1 := hlt
  have z0 : (0#32 : BitVec 32).toInt = 0 := by decide
  have z16 : (16#32 : BitVec 32).toInt = 16 := by decide
  rw [IntOp.cmpi_sge, z0] at hge'
  rw [IntOp.cmpi_slt, z16] at hlt'
  exact ⟨hge', hlt'⟩

end Cert.PreDecode

end
-- ==== Proof.lean ====
/-
  The proof of `Cert.Claim`: an NF4-dequantising linear layer with a parallel low-rank update, as a Pallas kernel in two
  passes, against its jnp reference, over the extended reals.

  Both programs compute, at (b, s, o),
      ∑_d x[b,s,d] · (word(code[o,d]) · absmax[o, d/64])  +  (∑_r (∑_d x[b,s,d] · A[r,d]) · B[o,r]) · 2
  (`Cert.QLora.G`, Proof/Spec.lean). The kernel decodes a code by a cascade of equality tests, expands the per-group scale
  by a product with a one-hot matrix, contracts in eight blocks of 512 columns starting from zero, and adds the doubled
  low-rank term on the last block (Proof/KReg0.lean, Proof/KReg1.lean, Proof/KHostA.lean, Proof/KHostE.lean, assembled
  in Proof/KValue.lean); the reference reads a sixteen-word table at the code, regroups the columns 64 by 64 to scale
  them, and contracts once (Proof/RefRun.lean, Proof/RefValue.lean). The two decodes agree exactly on the codes 0 … 15,
  which the precondition gives (Proof/PreDecode.lean); regrouping a finite sum and adding to zero are laws of the
  extended reals that need no finiteness, so the float half of the precondition is never opened.

  The three frames: the kernel's at both instances are the generated frame certificates; the reference's is its run
  with the result dropped. The ideal pass rewrote nothing, so `preserves` is `True`.
-/
import proofs.«402265_j75067438400019_2_alg».proof.Defs
import proofs.«402265_j75067438400019_2_alg».proof.Proof.Gen.Kernel
import proofs.«402265_j75067438400019_2_alg».proof.Proof.Gen.Kernel.Skeleton
import proofs.«402265_j75067438400019_2_alg».proof.Proof.Gen.Kernel.Launch
import proofs.«402265_j75067438400019_2_alg».proof.Proof.Gen.Kernel.Points
import proofs.«402265_j75067438400019_2_alg».proof.Proof.Gen.Kernel.Frame
import proofs.«402265_j75067438400019_2_alg».proof.Proof.Gen.KernelIdeal
import proofs.«402265_j75067438400019_2_alg».proof.Proof.Gen.KernelIdeal.Skeleton
import proofs.«402265_j75067438400019_2_alg».proof.Proof.Gen.KernelIdeal.Launch
import proofs.«402265_j75067438400019_2_alg».proof.Proof.Gen.KernelIdeal.Points
import proofs.«402265_j75067438400019_2_alg».proof.Proof.Gen.KernelIdeal.Frame
import proofs.«402265_j75067438400019_2_alg».proof.Proof.Gen.ReferenceIdeal
import proofs.«402265_j75067438400019_2_alg».proof.Proof.Gen.Pre_finite_inputs
import proofs.«402265_j75067438400019_2_alg».proof.Proof.Spec
import proofs.«402265_j75067438400019_2_alg».proof.Proof.KValue
import proofs.«402265_j75067438400019_2_alg».proof.Proof.RefRun
import proofs.«402265_j75067438400019_2_alg».proof.Proof.RefValue
import proofs.«402265_j75067438400019_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel's result buffer ends at `G` of its arguments and the reference's at its composed
    term of arguments that agree; that term is `G` where every code is one of 0 … 15, which the precondition says. -/
theorem algebraic : Cert.algebraic_KernelIdeal_ReferenceIdeal := by
  intro m ρ m' ρ' hpre hagree
  refine ⟨fun c => Cert.QLora.G (Cert.KernelIdeal.Value.xarr m c) (Cert.KernelIdeal.Value.carr m c) (Cert.KernelIdeal.Value.sarr m c)
    (Cert.KernelIdeal.Value.Aarr m c) (Cert.KernelIdeal.Value.Barr m c), Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.RefValue.refTerm_eq_G _ _ _ _ _ (Cert.PreDecode.codes_in_range _ _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
